-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S128x256 .f32) (main_arg3 : FVec F S256 .f32) (main_arg4 : FVec F S256x64 .f32) (main_arg5 : FVec F S64 .f32) (main_arg6 : FVec F S64x1 .f32) (main_arg7 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x256 : Shape := ⟨2, ![1, 256]⟩
abbrev S1x64 : Shape := ⟨2, ![1, 64]⟩
abbrev S1x1 : Shape := ⟨2, ![1, 1]⟩
abbrev S800000x256 : Shape := ⟨2, ![800000, 256]⟩
abbrev S6400x128 : Shape := ⟨2, ![6400, 128]⟩
abbrev S6400x256 : Shape := ⟨2, ![6400, 256]⟩
abbrev S6400x64 : Shape := ⟨2, ![6400, 64]⟩
abbrev S6400x1 : Shape := ⟨2, ![6400, 1]⟩

abbrev nBuf : Space → Nat
  | .hbm => 57
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x128, .f32⟩
  | .hbm, ⟨31, _⟩ => ⟨S1x256, .f32⟩
  | .hbm, ⟨32, _⟩ => ⟨S1x64, .f32⟩
  | .hbm, ⟨33, _⟩ => ⟨S1x1, .f32⟩
  | .hbm, ⟨34, _⟩ => ⟨S800000x256, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S800000x64, .f32⟩
  | .hbm, ⟨46, _⟩ => ⟨S1x64, .f32⟩
  | .hbm, ⟨47, _⟩ => ⟨S1x64, .f32⟩
  | .hbm, ⟨48, _⟩ => ⟨S_, .f32⟩
  | .hbm, ⟨49, _⟩ => ⟨S1x64, .f32⟩
  | .hbm, ⟨50, _⟩ => ⟨S1x64, .f32⟩
  | .hbm, ⟨51, _⟩ => ⟨S_, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S800000x1, .f32⟩
  | .local _ .vmem, ⟨0, _⟩ => ⟨S6400x128, .f32⟩
  | .local _ .vmem, ⟨1, _⟩ => ⟨S6400x128, .f32⟩
  | .local _ .vmem, ⟨2, _⟩ => ⟨S128x256, .f32⟩
  | .local _ .vmem, ⟨3, _⟩ => ⟨S1x256, .f32⟩
  | .local _ .vmem, ⟨4, _⟩ => ⟨S6400x256, .f32⟩
  | .local _ .vmem, ⟨5, _⟩ => ⟨S6400x256, .f32⟩
  | .local _ .vmem, ⟨6, _⟩ => ⟨S1x256, .f32⟩
  | .local _ .vmem, ⟨7, _⟩ => ⟨S1x256, .f32⟩
  | .local _ .vmem, ⟨8, _⟩ => ⟨S6400x256, .f32⟩
  | .local _ .vmem, ⟨9, _⟩ => ⟨S6400x256, .f32⟩
  | .local _ .vmem, ⟨10, _⟩ => ⟨S1x256, .f32⟩
  | .local _ .vmem, ⟨11, _⟩ => ⟨S1x256, .f32⟩
  | .local _ .vmem, ⟨12, _⟩ => ⟨S256x64, .f32⟩
  | .local _ .vmem, ⟨13, _⟩ => ⟨S1x64, .f32⟩
  | .local _ .vmem, ⟨14, _⟩ => ⟨S6400x64, .f32⟩
  | .local _ .vmem, ⟨15, _⟩ => ⟨S6400x64, .f32⟩
  | .local _ .vmem, ⟨16, _⟩ => ⟨S1x64, .f32⟩
  | .local _ .vmem, ⟨17, _⟩ => ⟨S1x64, .f32⟩
  | .local _ .vmem, ⟨18, _⟩ => ⟨S6400x64, .f32⟩
  | .local _ .vmem, ⟨19, _⟩ => ⟨S6400x64, .f32⟩
  | .local _ .vmem, ⟨20, _⟩ => ⟨S1x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S6400x1, .f32⟩
  | .local _ .vmem, ⟨25, _⟩ => ⟨S6400x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S6400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  shapeCasts_S256_S1x256 : S256.ShapeCasts S1x256
  shapeCasts_S64_S1x64 : S64.ShapeCasts S1x64
  shapeCasts_S1_S1x1 : S1.ShapeCasts S1x1
  inb_S1x256_S1x256_0_0 : ∀ a, (![0, 0] : Fin 2 → Nat) a + S1x256.size a ≤ S1x256.size a
  h_S1x256 : 0 < S1x256.numel
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S1x256_S1x256 : S1x256.ShapeCasts S1x256
  broadcasts_S1x256_S6400x256 : S1x256.Broadcasts S6400x256
  inb_S6400x256_S6400x256_0_0 : ∀ a, (![0, 0] : Fin 2 → Nat) a + S6400x256.size a ≤ S6400x256.size a
  h_S6400x256 : 0 < S6400x256.numel
  reduces_S6400x256_S256 : S6400x256.Reduces [0] S256
  bcast_S_S1x256 : S_.BroadcastsInDim S1x256 (![] : Fin 0 → Fin S1x256.rank)
  inb_S1x64_S1x64_0_0 : ∀ a, (![0, 0] : Fin 2 → Nat) a + S1x64.size a ≤ S1x64.size a
  h_S1x64 : 0 < S1x64.numel
  shapeCasts_S6400x256_S6400x256 : S6400x256.ShapeCasts S6400x256
  inb_S256x64_S256x64_0_0 : ∀ a, (![0, 0] : Fin 2 → Nat) a + S256x64.size a ≤ S256x64.size a
  h_S256x64 : 0 < S256x64.numel
  shapeCasts_S1x64_S1x64 : S1x64.ShapeCasts S1x64
  broadcasts_S1x64_S6400x64 : S1x64.Broadcasts S6400x64
  inb_S6400x64_S6400x64_0_0 : ∀ a, (![0, 0] : Fin 2 → Nat) a + S6400x64.size a ≤ S6400x64.size a
  h_S6400x64 : 0 < S6400x64.numel
  reduces_S6400x64_S64 : S6400x64.Reduces [0] S64
  bcast_S_S1x64 : S_.BroadcastsInDim S1x64 (![] : Fin 0 → Fin S1x64.rank)
  shapeCasts_S6400x64_S6400x64 : S6400x64.ShapeCasts S6400x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  gather_S50000x64_S800000x1_S800000x64_1_0_n_n_0_1_164_wf : GatherDims.WF S50000x64 S800000x1 S800000x64 [1] [0] [] [0] [] 1 ![1, 64]
  dot_S6400x128_S128x256_S6400x256_1_0_0_1_n_n_wf : DotDims.WF S6400x128 S128x256 S6400x256 [1] [0] [0] [1] [] []
  dot_S6400x256_S256x64_S6400x64_1_0_0_1_n_n_wf : DotDims.WF S6400x256 S256x64 S6400x64 [1] [0] [0] [1] [] []
  dot_S6400x64_S64x1_S6400x1_1_0_0_1_n_n_wf : DotDims.WF S6400x64 S64x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x256.size a ≤ S800000x256.size a
  hwx0_3 : ∀ i : grid0.Coords, EltTy.bits .f32 = 32 ∨ (Rect.block (s := S800000x256) S6400x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x256.size a ≤ S800000x256.size a
  hwx1_0 : ∀ i : grid1.Coords, EltTy.bits .f32 = 32 ∨ (Rect.block (s := S800000x256) S6400x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6400x64.size a ≤ S800000x64.size a
  hwx1_5 : ∀ i : grid1.Coords, EltTy.bits .f32 = 32 ∨ (Rect.block (s := S800000x64) S6400x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S800000x64.size a
  hwx2_0 : ∀ i : grid2.Coords, EltTy.bits .f32 = 32 ∨ (Rect.block (s := S800000x64) S6400x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x1.size a ≤ S800000x1.size a
  hwx2_5 : ∀ i : grid2.Coords, EltTy.bits .f32 = 32 ∨ (Rect.block (s := S800000x1) S6400x1.size (cc2_transform_5 i) (hinb2_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf
def dot_S6400x256_S256x64_S6400x64_1_0_0_1_n_n : DotDims S6400x256 S256x64 S6400x64 where
  lhsContracting := [1]
  rhsContracting := [0]
  lhsNonContracting := [0]
  rhsNonContracting := [1]
  lhsBatch := []
  rhsBatch := []
  wf := dot_S6400x256_S256x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf

abbrev win0_0 : Pipeline.Window sig grid0 :=
  Pipeline.Window.ofSpec (Memref.whole main_v18) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S6400x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_2) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22_0) S6400x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29_0) S6400x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v29_1) S1x64.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29_2) S1x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v29_0) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S6400x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S800000x256 : Shape := ⟨2, ![800000, 256]⟩
abbrev S1x256 : Shape := ⟨2, ![1, 256]⟩
abbrev S1x64 : Shape := ⟨2, ![1, 64]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x128, .f32⟩
  | .hbm, ⟨31, _⟩ => ⟨S800000x256, .f32⟩
  | .hbm, ⟨32, _⟩ => ⟨S1x256, .f32⟩
  | .hbm, ⟨33, _⟩ => ⟨S800000x256, .f32⟩
  | .hbm, ⟨34, _⟩ => ⟨S800000x256, .f32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S800000x256, .f32⟩
  | .hbm, ⟨42, _⟩ => ⟨S800000x256, .f32⟩
  | .hbm, ⟨43, _⟩ => ⟨S800000x256, .f32⟩
  | .hbm, ⟨44, _⟩ => ⟨S_, .f32⟩
  | .hbm, ⟨45, _⟩ => ⟨S256, .f32⟩
  | .hbm, ⟨46, _⟩ => ⟨S1x256, .f32⟩
  | .hbm, ⟨47, _⟩ => ⟨S_, .f32⟩
  | .hbm, ⟨48, _⟩ => ⟨S1x256, .f32⟩
  | .hbm, ⟨49, _⟩ => ⟨S1x256, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S800000x256, .f32⟩
  | .hbm, ⟨57, _⟩ => ⟨S800000x256, .f32⟩
  | .hbm, ⟨58, _⟩ => ⟨S_, .f32⟩
  | .hbm, ⟨59, _⟩ => ⟨S800000x256, .f32⟩
  | .hbm, ⟨60, _⟩ => ⟨S800000x256, .f32⟩
  | .hbm, ⟨61, _⟩ => ⟨S800000x64, .f32⟩
  | .hbm, ⟨62, _⟩ => ⟨S1x64, .f32⟩
  | .hbm, ⟨63, _⟩ => ⟨S800000x64, .f32⟩
  | .hbm, ⟨64, _⟩ => ⟨S800000x64, .f32⟩
  | .hbm, ⟨65, _⟩ => ⟨S_, .f32⟩
  | .hbm, ⟨66, _⟩ => ⟨S64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S800000x64, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S64, .f32⟩
  | .hbm, ⟨76, _⟩ => ⟨S1x64, .f32⟩
  | .hbm, ⟨77, _⟩ => ⟨S_, .f32⟩
  | .hbm, ⟨78, _⟩ => ⟨S1x64, .f32⟩
  | .hbm, ⟨79, _⟩ => ⟨S1x64, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S800000x64, .f32⟩
  | .hbm, ⟨87, _⟩ => ⟨S800000x64, .f32⟩
  | .hbm, ⟨88, _⟩ => ⟨S_, .f32⟩
  | .hbm, ⟨89, _⟩ => ⟨S800000x64, .f32⟩
  | .hbm, ⟨90, _⟩ => ⟨S800000x64, .f32⟩
  | .hbm, ⟨91, _⟩ => ⟨S800000x1, .f32⟩
  | .hbm, ⟨92, _⟩ => ⟨S1x1, .f32⟩
  | .hbm, ⟨93, _⟩ => ⟨S800000x1, .f32⟩
  | .hbm, ⟨94, _⟩ => ⟨S800000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  reducesTo_S800000x256_S256_d0 : S800000x256.ReducesTo [0] S256
  h_S_ : 0 < S_.numel
  bcast_S_S1x256 : S_.BroadcastsInDim S1x256 (![] : Fin 0 → Fin S1x256.rank)
  bcast_S_S800000x256 : S_.BroadcastsInDim S800000x256 (![] : Fin 0 → Fin S800000x256.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  reducesTo_S800000x64_S64_d0 : S800000x64.ReducesTo [0] S64
  bcast_S_S1x64 : S_.BroadcastsInDim S1x64 (![] : Fin 0 → Fin S1x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S50000x64_S800000x1_S800000x64_1_0_n_n_0_1_164_wf : GatherDims.WF S50000x64 S800000x1 S800000x64 [1] [0] [] [0] [] 1 ![1, 64]
  dot_S800000x128_S128x256_S800000x256_1_0_0_1_n_n_wf : DotDims.WF S800000x128 S128x256 S800000x256 [1] [0] [0] [1] [] []
  dot_S800000x256_S256x64_S800000x64_1_0_0_1_n_n_wf : DotDims.WF S800000x256 S256x64 S800000x64 [1] [0] [0] [1] [] []
  dot_S800000x64_S64x1_S800000x1_1_0_0_1_n_n_wf : DotDims.WF S800000x64 S64x1 S800000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.Spec.lean ====
/-
  The mathematics of the certificate, with no program in sight.

  A matrix is a function of a row and a column into the extended reals. An affine layer sends a matrix x to
  x·w + b. Between two layers every column is normalised over the rows — the column's mean is subtracted and the
  result is scaled by the reciprocal square root of the column's variance plus a small positive constant — and then
  clipped below at zero.

  The variance of a column is written in two ways. One uses the first two moments: the mean of the squares minus the
  square of the mean. The other is centred: the mean of the squared deviations from the mean. Expanding the square
  shows that they agree,
      (1/n) Σ (x_e − μ)²  =  (1/n) Σ x_e²  −  μ²      where μ = (1/n) Σ x_e ,
  but the expansion distributes a product over a sum, which the extended reals allow only away from the infinities:
  the identity is proved for matrices all of whose entries are real numbers, and that property is carried from layer
  to layer — a layer of real weights keeps entries real, and the variance plus a positive constant is positive, so its
  reciprocal square root is real.

  A column's sum over all rows is also the sum, block of rows by block of rows, of the blocks' sums: addition on the
  extended reals is commutative and associative, so this regrouping needs no finiteness.
-/
import Idealize.ShloMosaic.PureOps.Ideal
import Idealize.ShloMosaic.Lib.ValueIdx

noncomputable section

namespace Cert.NormMlp

open Idealize.ShloMosaic

/-- A matrix of extended reals with `a` rows and `b` columns. -/
abbrev Mat (a b : ℕ) : Type := Fin a → Fin b → EReal

variable {n K C : ℕ}

/-- The affine layer: entry (e, c) of x·w + b. -/
def lin (x : Mat n K) (w : Mat K C) (b : Fin C → EReal) : Mat n C :=
  fun e c => (∑ k : Fin K, x e k * w k c) + b c

/-- Each column's sum over the rows. -/
def colSum (x : Mat n C) : Fin C → EReal := fun c => ∑ e : Fin n, x e c

/-- Each column's sum of squares over the rows. -/
def colSumSq (x : Mat n C) : Fin C → EReal := fun c => ∑ e : Fin n, x e c * x e c

/-- A column statistic divided by the number of rows `N`. -/
def meanOf (N : EReal) (s : Fin C → EReal) : Fin C → EReal := fun c => Ideal.div (s c) N

/-- The variance from the first two moments: the mean of the squares minus the square of the mean. -/
def varMoments (N : EReal) (s ss : Fin C → EReal) : Fin C → EReal :=
  fun c => Ideal.div (ss c) N - Ideal.div (s c) N * Ideal.div (s c) N

/-- The centred variance: the mean of the squared deviations from `μ`. -/
def varCentred (N : EReal) (x : Mat n C) (μ : Fin C → EReal) : Fin C → EReal :=
  fun c => Ideal.div (∑ e : Fin n, (x e c - μ c) * (x e c - μ c)) N

/-- Normalise each column by mean `μ` and variance `v` (with the constant `ε` under the root), then clip at zero. -/
def normAct (ε : EReal) (x : Mat n C) (μ v : Fin C → EReal) : Mat n C :=
  fun e c => max ((x e c - μ c) * Ideal.rsqrt (v c + ε)) 0

/-- The step between two layers with the variance taken from the moments. -/
def stepMoments (N ε : EReal) (x : Mat n C) : Mat n C :=
  normAct ε x (meanOf N (colSum x)) (varMoments N (colSum x) (colSumSq x))

/-- The step between two layers with the centred variance. -/
def stepCentred (N ε : EReal) (x : Mat n C) : Mat n C :=
  normAct ε x (meanOf N (colSum x)) (varCentred N x (meanOf N (colSum x)))

/-- Every entry of a matrix is a real number. -/
def IsReal (x : Mat n C) : Prop := ∀ e c, ∃ r : ℝ, x e c = (r : EReal)

/-- Every entry of a vector is a real number. -/
def IsRealVec (b : Fin C → EReal) : Prop := ∀ c, ∃ r : ℝ, b c = (r : EReal)

/-- An array of shape [a, b] read as a matrix. -/
def ofArr {a b : ℕ} (x : (⟨2, ![a, b]⟩ : Shape).Idx → EReal) : Mat a b := fun p q => x (ValueIdx.ix2 p q)

/-- An array of shape [a] read as a vector. -/
def ofVec {a : ℕ} (x : (⟨1, ![a]⟩ : Shape).Idx → EReal) : Fin a → EReal := fun p => x (ValueIdx.ix1 p)

/-- The number of rows, as the float word both programs divide by (it denotes 800000). -/
def cnt : EReal := Ideal.ofBits .f32 0x49435000#32

/-- The constant under the root, as the float word both programs add (it denotes a positive real near 1e-5). -/
def eps : EReal := Ideal.ofBits .f32 0x3727C5AC#32

variable {K₁ K₂ K₃ : ℕ}

/-- Three affine layers with the normalise-and-clip step between them, the variances taken from the moments. -/
def netMoments (N ε : EReal) (f : Mat n K) (w₁ : Mat K K₁) (b₁ : Fin K₁ → EReal) (w₂ : Mat K₁ K₂) (b₂ : Fin K₂ → EReal)
    (w₃ : Mat K₂ K₃) (b₃ : Fin K₃ → EReal) : Mat n K₃ :=
  lin (stepMoments N ε (lin (stepMoments N ε (lin f w₁ b₁)) w₂ b₂)) w₃ b₃

/-- The same with the centred variances. -/
def netCentred (N ε : EReal) (f : Mat n K) (w₁ : Mat K K₁) (b₁ : Fin K₁ → EReal) (w₂ : Mat K₁ K₂) (b₂ : Fin K₂ → EReal)
    (w₃ : Mat K₂ K₃) (b₃ : Fin K₃ → EReal) : Mat n K₃ :=
  lin (stepCentred N ε (lin (stepCentred N ε (lin f w₁ b₁)) w₂ b₂)) w₃ b₃

end Cert.NormMlp

end
-- ==== Proof.Laws.lean ====
/-
  The laws of the specification: an affine layer of real weights keeps entries real; on a matrix of real entries the
  variance from the moments is the centred variance, so the two forms of the step between layers agree, and the step
  keeps entries real; hence the two three-layer functions agree on real inputs. And a sum over a·b rows is the sum of
  the a blocks' sums.
-/
import proofs.«150829_j41841571397745_1_alg».proof.Proof.Spec

noncomputable section

namespace Cert.NormMlp

open Idealize.ShloMosaic

variable {n K C : ℕ}

/-- A finite sum of real numbers, taken in the extended reals, is the real sum. -/
theorem coe_sum_real {ι : Type} (s : Finset ι) (f : ι → ℝ) :
    (∑ i ∈ s, ((f i : ℝ) : EReal)) = ((∑ i ∈ s, f i : ℝ) : EReal) := by
  classical
  refine Finset.induction_on s ?_ ?_
  · simp
  · intro a t ha ih
    rw [Finset.sum_insert ha, Finset.sum_insert ha, ih, EReal.coe_add]

/-- An affine layer of real weights keeps entries real. -/
theorem isReal_lin {x : Mat n K} {w : Mat K C} {b : Fin C → EReal} (hx : IsReal x) (hw : IsReal w) (hb : IsRealVec b) :
    IsReal (lin x w b) := by
  choose rx hrx using hx
  choose rv hrv using hw
  choose rb hrb using hb
  intro e c
  refine ⟨(∑ k : Fin K, rx e k * rv k c) + rb c, ?_⟩
  unfold lin
  simp only [hrx, hrv, hrb]
  rw [EReal.coe_add, ← coe_sum_real]
  simp only [EReal.coe_mul]

/-- The identity between the two variances, in the real numbers: the mean of the squares minus the square of the
    mean is the mean of the squared deviations from the mean (expand the square and sum). -/
theorem real_var_identity (hn : n ≠ 0) (r : Fin n → ℝ) :
    (∑ e, r e * r e) * (1 / (n : ℝ)) - ((∑ e, r e) * (1 / (n : ℝ))) * ((∑ e, r e) * (1 / (n : ℝ)))
      = (∑ e, (r e - (∑ e, r e) * (1 / (n : ℝ))) * (r e - (∑ e, r e) * (1 / (n : ℝ)))) * (1 / (n : ℝ)) := by
  have hn' : (n : ℝ) ≠ 0 := Nat.cast_ne_zero.mpr hn
  generalize hS : (∑ e, r e) = S
  generalize hm : S * (1 / (n : ℝ)) = m
  have h1 : (∑ e, (r e - m) * (r e - m)) = (∑ e, r e * r e) - 2 * m * S + n * (m * m) := by
    have hsq : ∀ e, (r e - m) * (r e - m) = r e * r e - 2 * m * r e + m * m := fun e => by ring
    simp only [hsq]
    rw [Finset.sum_add_distrib, Finset.sum_sub_distrib, ← Finset.mul_sum, hS, Finset.sum_const, Finset.card_univ,
      Fintype.card_fin, nsmul_eq_mul]
  rw [h1, ← hm]
  field_simp
  ring

section Witnessed

variable {N : EReal} {x : Mat n C} {r : Fin n → Fin C → ℝ}

/-- A column's sum, on real entries, is the real sum. -/
theorem colSum_coe (hr : ∀ e c, x e c = ((r e c : ℝ) : EReal)) (c : Fin C) :
    colSum x c = ((∑ e, r e c : ℝ) : EReal) := by
  unfold colSum
  simp only [hr]
  rw [coe_sum_real]

/-- A column's sum of squares, on real entries, is the real sum of squares. -/
theorem colSumSq_coe (hr : ∀ e c, x e c = ((r e c : ℝ) : EReal)) (c : Fin C) :
    colSumSq x c = ((∑ e, r e c * r e c : ℝ) : EReal) := by
  unfold colSumSq
  simp only [hr, ← EReal.coe_mul]
  rw [coe_sum_real]

/-- A column's mean, on real entries, is the real mean. -/
theorem meanOf_coe (hn : n ≠ 0) (hN : N = ((n : ℝ) : EReal)) (hr : ∀ e c, x e c = ((r e c : ℝ) : EReal)) (c : Fin C) :
    meanOf N (colSum x) c = (((∑ e, r e c) * (1 / (n : ℝ)) : ℝ) : EReal) := by
  have hn' : (n : ℝ) ≠ 0 := Nat.cast_ne_zero.mpr hn
  unfold meanOf
  rw [hN, Ideal.div_coe hn', colSum_coe hr, ← EReal.coe_mul]

/-- The variance from the moments, on real entries, is the real one. -/
theorem varMoments_coe (hn : n ≠ 0) (hN : N = ((n : ℝ) : EReal)) (hr : ∀ e c, x e c = ((r e c : ℝ) : EReal))
    (c : Fin C) :
    varMoments N (colSum x) (colSumSq x) c
      = (((∑ e, r e c * r e c) * (1 / (n : ℝ))
          - ((∑ e, r e c) * (1 / (n : ℝ))) * ((∑ e, r e c) * (1 / (n : ℝ))) : ℝ) : EReal) := by
  have hn' : (n : ℝ) ≠ 0 := Nat.cast_ne_zero.mpr hn
  unfold varMoments
  rw [hN, Ideal.div_coe hn', Ideal.div_coe hn', colSum_coe hr, colSumSq_coe hr, ← EReal.coe_mul, ← EReal.coe_mul,
    ← EReal.coe_mul, ← EReal.coe_sub]

/-- The centred variance, on real entries, is the real one. -/
theorem varCentred_coe (hn : n ≠ 0) (hN : N = ((n : ℝ) : EReal)) (hr : ∀ e c, x e c = ((r e c : ℝ) : EReal))
    (c : Fin C) :
    varCentred N x (meanOf N (colSum x)) c
      = (((∑ e, (r e c - (∑ e, r e c) * (1 / (n : ℝ))) * (r e c - (∑ e, r e c) * (1 / (n : ℝ))))
          * (1 / (n : ℝ)) : ℝ) : EReal) := by
  have hn' : (n : ℝ) ≠ 0 := Nat.cast_ne_zero.mpr hn
  unfold varCentred
  rw [meanOf_coe hn hN hr, hN, Ideal.div_coe hn']
  simp only [hr, ← EReal.coe_sub, ← EReal.coe_mul]
  rw [coe_sum_real, ← EReal.coe_mul]

end Witnessed

/-- THE TWO VARIANCES AGREE on a matrix of real entries over `n ≠ 0` rows, `N` the number of rows as a real. -/
theorem varMoments_eq_varCentred (hn : n ≠ 0) {N : EReal} (hN : N = ((n : ℝ) : EReal)) {x : Mat n C} (hx : IsReal x) :
    varMoments N (colSum x) (colSumSq x) = varCentred N x (meanOf N (colSum x)) := by
  choose r hr using hx
  funext c
  rw [varMoments_coe hn hN hr, varCentred_coe hn hN hr, real_var_identity hn (fun e => r e c)]

/-- So the two steps agree there. -/
theorem stepMoments_eq_stepCentred (hn : n ≠ 0) {N : EReal} (hN : N = ((n : ℝ) : EReal)) (ε : EReal) {x : Mat n C}
    (hx : IsReal x) : stepMoments N ε x = stepCentred N ε x := by
  unfold stepMoments stepCentred
  rw [varMoments_eq_varCentred hn hN hx]

/-- The step keeps entries real when `ε` is a positive real: the centred variance is a nonnegative real, so the
    root's argument is positive. -/
theorem isReal_stepCentred (hn : n ≠ 0) {N : EReal} (hN : N = ((n : ℝ) : EReal)) {ε : EReal} {εr : ℝ} (hε : ε = (εr : EReal))
    (hpos : 0 < εr) {x : Mat n C} (hx : IsReal x) : IsReal (stepCentred N ε x) := by
  choose r hr using hx
  intro e c
  have hn' : (0 : ℝ) < 1 / (n : ℝ) := one_div_pos.mpr (Nat.cast_pos.mpr (Nat.pos_of_ne_zero hn))
  -- the centred variance is a nonnegative real: a sum of squares times a positive number
  have hv : 0 ≤ (∑ e, (r e c - (∑ e, r e c) * (1 / (n : ℝ))) * (r e c - (∑ e, r e c) * (1 / (n : ℝ))))
      * (1 / (n : ℝ)) :=
    mul_nonneg (Finset.sum_nonneg fun e _ => mul_self_nonneg _) hn'.le
  generalize hV : (∑ e, (r e c - (∑ e, r e c) * (1 / (n : ℝ))) * (r e c - (∑ e, r e c) * (1 / (n : ℝ))))
      * (1 / (n : ℝ)) = V at hv
  have hp : 0 < V + εr := add_pos_of_nonneg_of_pos hv hpos
  refine ⟨max ((r e c - (∑ e, r e c) * (1 / (n : ℝ))) * (Real.sqrt (V + εr))⁻¹) 0, ?_⟩
  unfold stepCentred normAct
  rw [varCentred_coe hn hN hr, meanOf_coe hn hN hr, hr, hV, hε, ← EReal.coe_add, Ideal.rsqrt_coe,
    if_neg (not_lt.mpr hp.le), if_neg hp.ne', ← EReal.coe_sub, ← EReal.coe_mul, ← EReal.coe_zero]
  -- the coercion of the reals is monotone, so it commutes with the maximum
  exact (EReal.coe_strictMono.monotone.map_max).symm

variable {K₁ K₂ K₃ : ℕ}

/-- THE TWO NETWORKS AGREE on real inputs. -/
theorem netMoments_eq_netCentred (hn : n ≠ 0) {N : EReal} (hN : N = ((n : ℝ) : EReal)) {ε : EReal} {εr : ℝ}
    (hε : ε = (εr : EReal)) (hpos : 0 < εr) {f : Mat n K} {w₁ : Mat K K₁} {b₁ : Fin K₁ → EReal} {w₂ : Mat K₁ K₂}
    {b₂ : Fin K₂ → EReal} (w₃ : Mat K₂ K₃) (b₃ : Fin K₃ → EReal) (hf : IsReal f) (hw₁ : IsReal w₁) (hb₁ : IsRealVec b₁)
    (hw₂ : IsReal w₂) (hb₂ : IsRealVec b₂) :
    netMoments N ε f w₁ b₁ w₂ b₂ w₃ b₃ = netCentred N ε f w₁ b₁ w₂ b₂ w₃ b₃ := by
  have h₁ : IsReal (lin f w₁ b₁) := isReal_lin hf hw₁ hb₁
  have h₂ : IsReal (lin (stepCentred N ε (lin f w₁ b₁)) w₂ b₂) :=
    isReal_lin (isReal_stepCentred hn hN hε hpos h₁) hw₂ hb₂
  unfold netMoments netCentred
  rw [stepMoments_eq_stepCentred hn hN ε h₁, stepMoments_eq_stepCentred hn hN ε h₂]

/-- A sum over `a * b` rows, regrouped into `a` blocks of `b` consecutive rows. -/
theorem sum_blocks (a b : ℕ) (g : ℕ → EReal) :
    (∑ s ∈ Finset.range a, ∑ r : Fin b, g (b * s + r.val)) = ∑ e : Fin (a * b), g e.val := by
  -- a row of the a·b is a block and a row within it; sum over the pairs
  rw [Finset.sum_range, ← Equiv.sum_comp finProdFinEquiv (fun e : Fin (a * b) => g e.val), Fintype.sum_prod_type]
  refine Finset.sum_congr rfl fun s _ => Finset.sum_congr rfl fun r _ => ?_
  rw [finProdFinEquiv_apply_val, add_comm]

end Cert.NormMlp

end
-- ==== Proof.Consts.lean ====
/-
  The two float words the programs share, as real numbers: the divisor is 800000, the constant under the root a
  positive real.
-/
import proofs.«150829_j41841571397745_1_alg».proof.Proof.Spec

set_option maxRecDepth 16384

noncomputable section

namespace Cert.NormMlp

open Idealize.ShloMosaic

/-- The divisor's word denotes the number of rows. -/
theorem cnt_eq : cnt = (((800000 : ℕ) : ℝ) : EReal) := by
  -- sign 0, exponent 146, fraction 0x435000: (2^23 + 4411392) · 2^(146 - 127 - 23) = 12800000 / 16
  unfold cnt
  simp [Ideal.ofBits, Ideal.ieee, -EReal.coe_mul]
  norm_num

/-- The constant under the root is a positive real. -/
theorem eps_pos : ∃ r : ℝ, 0 < r ∧ eps = (r : EReal) := by
  -- sign 0, exponent 110 (neither 0 nor 255): a normal number, a positive integer times a power of two
  unfold eps
  simp [Ideal.ofBits, Ideal.ieee, -EReal.coe_mul]

end Cert.NormMlp

end
-- ==== Proof.Finite.lean ====
/-
  The precondition says every float argument holds finite numbers: each is then a matrix or a vector of real entries.
-/
import proofs.«150829_j41841571397745_1_alg».proof.Defs
import proofs.«150829_j41841571397745_1_alg».proof.Proof.Gen.Pre_finite_inputs
import proofs.«150829_j41841571397745_1_alg».proof.Proof.Spec
import Idealize.ShloMosaic.Lib.ReduceAll
import Idealize.ShloMosaic.Lib.ValueIdx

set_option maxRecDepth 16384

noncomputable section

namespace Cert.KernelIdeal.Finite

open Cert.KernelIdeal Cert.NormMlp
open Idealize.ShloMosaic Idealize.ShloMosaic.TcCoe Idealize.ShloMosaic.ValueIdx Idealize.SL.Sem

/-- The result shape of a reduction over every axis has one index. -/
instance subsingleton_scalar_idx : Subsingleton Cert.Pre_finite_inputs.S_.Idx :=
  ⟨fun a b => funext fun d => d.elim0⟩

/-- The word with all exponent bits set and no fraction bit denotes +∞. -/
theorem ofBits_inf : Ideal.ofBits .f32 0x7F800000#32 = (⊤ : EReal) := by
  simp [Ideal.ofBits, Ideal.ieee]

/-- An extended real whose absolute value lies strictly below +∞ is neither infinity: it is a real. -/
theorem real_of_abs_lt_top (x : EReal) (h : max x (-x) < ⊤) : ∃ r : ℝ, x = (r : EReal) := by
  induction x using EReal.rec with
  | bot => simp at h
  | coe r => exact ⟨r, rfl⟩
  | top => simp at h

/-- If the conjunction over all entries of "|x| < +∞" is true, every entry of x is a real: the conjunction gives
    the comparison at each index, the comparison is the order's, and the bound is ⊤. -/
theorem entries_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant Cert.Pre_finite_inputs.S_ .f32 0x7F800000#32)))
          init hr hu ValueIdx.ix0 = 1#1)
    (i : s.Idx) : ∃ r : ℝ, x i = (r : EReal) := by
  have h1 := Host.reduce_andi_all _ init hr hu _ e i
  have h2 : Ideal.cmp .olt (max (x i) (-(x i))) (Ideal.ofBits .f32 0x7F800000#32) = 1#1 := h1
  rw [ofBits_inf] at h2
  have h3 : BitVec.ofBool (decide (max (x i) (-(x i)) < ⊤)) = 1#1 := h2
  refine real_of_abs_lt_top _ ?_
  cases hd : decide (max (x i) (-(x i)) < ⊤) with
  | true => exact of_decide_eq_true hd
  | false => rw [hd] at h3; exact absurd h3 (by decide)

/-- Under the precondition the table, the first two weight matrices and the first two biases have real entries. -/
theorem args_real [hPre_finite_inputs : Cert.Pre_finite_inputs.Facts] (m : (ℓ : Loc nD τ sig) → Buf (Elt Ideal) ℓ)
    (h : Cert.Pre_KernelIdeal m) (c : Dev nD) :
    (∀ j : S50000x64.Idx, ∃ r : ℝ, m ((c : Thread nD τ).loc main_arg0) j = (r : EReal))
    ∧ IsReal (ofArr (a := 128) (b := 256) (m ((c : Thread nD τ).loc main_arg2)))
    ∧ IsRealVec (ofVec (a := 256) (m ((c : Thread nD τ).loc main_arg3)))
    ∧ IsReal (ofArr (a := 256) (b := 64) (m ((c : Thread nD τ).loc main_arg4)))
    ∧ IsRealVec (ofVec (a := 64) (m ((c : Thread nD τ).loc main_arg5))) := by
  -- the predicate at its one index, its chain of operations in view, the conjunction split
  have h0 := congrFun (h c) ValueIdx.ix0
  dsimp only [Cert.Pre_finite_inputs.fn, Cert.Pre_finite_inputs.fn_part1, andi] at h0
  simp only [IntOp.andi_eq_one] at h0
  obtain ⟨⟨⟨⟨⟨⟨e0, e2⟩, e3⟩, e4⟩, e5⟩, _⟩, _⟩ := h0
  refine ⟨fun j => entries_real _ _ _ _ _ e0 j, fun p q => ?_, fun p => ?_, fun p q => ?_, fun p => ?_⟩
  · exact entries_real _ _ _ _ _ e2 (ValueIdx.ix2 p q)
  · exact entries_real _ _ _ _ _ e3 (ValueIdx.ix1 p)
  · exact entries_real _ _ _ _ _ e4 (ValueIdx.ix2 p q)
  · exact entries_real _ _ _ _ _ e5 (ValueIdx.ix1 p)

end Cert.KernelIdeal.Finite

end
-- ==== Proof.Joined.lean ====
/-
  The rows both programs start from. Each gathers, for every edge, the two table rows its index pair names (an index
  below zero counted from the end, then clamped into the table) and joins them side by side. The two programs do this
  with the same operations on the same arguments, so the joined matrix is one term; and each of its entries is an entry
  of the table, so it is real where the table is.
-/
import proofs.«150829_j41841571397745_1_alg».proof.Proof.Gen.KernelIdeal.Frame
import proofs.«150829_j41841571397745_1_alg».proof.Proof.Gen.ReferenceIdeal.Read
import proofs.«150829_j41841571397745_1_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.Joined

open Cert.NormMlp
open Idealize.ShloMosaic Idealize.ShloMosaic.TcCoe Idealize.ShloMosaic.ValueIdx Idealize.SL.Sem

/-- Joining two pieces side by side respects equality of the pieces. -/
theorem concat_congr {α : Type} {t s : Shape} {a : Fin t.rank} {A A' B B' : s.Idx → α}
    (h h' : Shape.Concatenates [s, s] t a) (eA : A = A') (eB : B = B') :
    concatenate t a [⟨s, A⟩, ⟨s, B⟩] h = concatenate t a [⟨s, A'⟩, ⟨s, B'⟩] h' := by
  subst eA; subst eB; rfl

/-- What the kernel's first region finds in its first input buffer is the reference's joined matrix of the same
    arguments. -/
theorem kernel_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.V1 m ρ c Cert.KernelIdeal.main_v18
      = Cert.ReferenceIdeal.Read.val_main_v18 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  -- the kernel's side: the joined matrix is the last of the stretch's operations that writes this buffer
  dsimp only [Cert.KernelIdeal.Gen.V1, Cert.KernelIdeal.Gen.W1, Cert.KernelIdeal.Gen.hostOps0]
  after_results_simp
  -- the reference's side: the same join, of the reference's two gathered matrices
  unfold Cert.ReferenceIdeal.Read.val_main_v18
  refine concat_congr _ _ ?_ ?_
  -- each gathered matrix is the same chain of operations on the same two arguments
  · after_results_simp
    rfl
  · after_results_simp
    rfl

/-- Every entry of the joined matrix is an entry of the table. -/
theorem entry_of_table (x0 : (⟨Cert.ReferenceIdeal.S50000x64, .f32⟩ : BufTy).Contents (Elt Ideal))
    (x1 : (⟨Cert.ReferenceIdeal.S2x800000, .i32⟩ : BufTy).Contents (Elt Ideal)) (i : Cert.ReferenceIdeal.S800000x128.Idx) :
    ∃ j : Cert.ReferenceIdeal.S50000x64.Idx, Cert.ReferenceIdeal.Read.val_main_v18 (F := Ideal) x0 x1 i = x0 j := by
  unfold Cert.ReferenceIdeal.Read.val_main_v18
  by_cases h : (i 1).val < 64
  -- a column below 64 reads the first gathered matrix at the same row and column
  · rw [concatenate_pair_apply_left (s₁ := Cert.ReferenceIdeal.S800000x64) (s₂ := Cert.ReferenceIdeal.S800000x64)
        (1 : Fin Cert.ReferenceIdeal.S800000x128.rank) _ _ _ i rfl
        (ix2 (i 0) ⟨(i 1).val, h⟩) (fun b => match b with | ⟨0, _⟩ => rfl | ⟨1, _⟩ => rfl)]
    exact ⟨_, rfl⟩
  -- a column from 64 on reads the second gathered matrix at the same row, the column 64 less
  · have h1 : (i 1).val < 128 := (i 1).isLt
    rw [concatenate_pair_apply_right (s₁ := Cert.ReferenceIdeal.S800000x64) (s₂ := Cert.ReferenceIdeal.S800000x64)
        (1 : Fin Cert.ReferenceIdeal.S800000x128.rank) _ _ _ i rfl rfl
        (ix2 (i 0) ⟨(i 1).val - 64, by omega⟩)
        (fun b => match b with | ⟨0, _⟩ => fun _ => rfl | ⟨1, _⟩ => fun hb => absurd rfl hb)
        (by show (i 1).val - 64 + 64 = (i 1).val; omega)]
    exact ⟨_, rfl⟩

/-- So it is real where the table is. -/
theorem isReal (x0 : (⟨Cert.ReferenceIdeal.S50000x64, .f32⟩ : BufTy).Contents (Elt Ideal))
    (x1 : (⟨Cert.ReferenceIdeal.S2x800000, .i32⟩ : BufTy).Contents (Elt Ideal))
    (h0 : ∀ j : Cert.ReferenceIdeal.S50000x64.Idx, ∃ r : ℝ, x0 j = (r : EReal)) :
    IsReal (ofArr (a := 800000) (b := 128) (Cert.ReferenceIdeal.Read.val_main_v18 (F := Ideal) x0 x1)) := fun e k => by
  obtain ⟨j, hj⟩ := entry_of_table x0 x1 (ix2 e k)
  obtain ⟨r, hr⟩ := h0 j
  exact ⟨r, hj.trans hr⟩

end Cert.Joined

end
-- ==== Proof.Layer1.lean ====
/-
  The first region: 125 grid points, each taking a block of 6400 rows of the input matrix. A point computes its block
  of x·w + b and stores it; two more output blocks, one row each and never moved, hold the running column sums of
  that product and of its squares: reset to zero at the first point, then each point adds its block's column sums.
  Read over the whole run: the big output is x·w + b, the two rows are its column sums and column sums of squares.
-/
import proofs.«150829_j41841571397745_1_alg».proof.Proof.Gen.KernelIdeal.Frame
import proofs.«150829_j41841571397745_1_alg».proof.Proof.Spec
import proofs.«150829_j41841571397745_1_alg».proof.Proof.Laws
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Layer1

open Cert.KernelIdeal Cert.KernelIdeal.Gen Cert.NormMlp
open Idealize.ShloMosaic Idealize.ShloMosaic.TcCoe Idealize.ShloMosaic.ValueIdx Idealize.SL.Sem
open Idealize.ShloMosaic.Pipeline (Dat)

-- the buffer contents the region is entered with: a parameter
variable (V : (c : Dev nD) → (b : Ref sig .tc) → Buf (Elt Ideal) ((c : Thread nD τ).loc b))

/-- The first layer's output, from the region's three input arrays. -/
def out (c : Dev nD) : Mat 800000 256 :=
  lin (ofArr (a := 800000) (b := 128) (V c main_v18)) (ofArr (a := 128) (b := 256) (V c main_arg2))
    (fun j => V c main_v19 (ix2 (0 : Fin 1) j))

/-! ## What one point leaves in each output, as a value -/

section Pieces
variable {F : FTy → Type} [FloatOps F]

/-- The origin of a rank-2 block. -/
theorem hz : (![0, 0] : Fin 2 → Nat) = fun _ => 0 := funext fun a => by fin_cases a <;> rfl

/-- A later point leaves its block of the product in the big output's buffer, -/
theorem pieceB3 (c : Dev nD) (i : grid0.Coords) (a1 : Memref sig .tc .vmem S6400x128 .f32) (h1 : a1.IsWhole)
    (a2 : Memref sig .tc .vmem S128x256 .f32) (h2 : a2.IsWhole) (a3 : Memref sig .tc .vmem S1x256 .f32) (h3 : a3.IsWhole)
    (a4 : Memref sig .tc .vmem S6400x256 .f32) (h4 : a4.IsWhole) (a5 : Memref sig .tc .vmem S1x256 .f32) (h5 : a5.IsWhole)
    (a6 : Memref sig .tc .vmem S1x256 .f32) (h6 : a6.IsWhole) (hc : ¬cond0_0 i)
    (x0 : Vec F S6400x128 .f32) (x1 : Vec F S128x256 .f32) (x2 : Vec F S1x256 .f32) (xo4 xo5 : Vec F S1x256 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S6400x128) hz, View.ld_unit_zero (S := S128x256) hz, View.ld_unit_zero (S := S1x256) hz]

/-- the row it found plus its block's column sums in the first one-row buffer, -/
theorem pieceB4 (c : Dev nD) (i : grid0.Coords) (a1 : Memref sig .tc .vmem S6400x128 .f32) (h1 : a1.IsWhole)
    (a2 : Memref sig .tc .vmem S128x256 .f32) (h2 : a2.IsWhole) (a3 : Memref sig .tc .vmem S1x256 .f32) (h3 : a3.IsWhole)
    (a4 : Memref sig .tc .vmem S6400x256 .f32) (h4 : a4.IsWhole) (a5 : Memref sig .tc .vmem S1x256 .f32) (h5 : a5.IsWhole)
    (a6 : Memref sig .tc .vmem S1x256 .f32) (h6 : a6.IsWhole) (hc : ¬cond0_0 i)
    (x0 : Vec F S6400x128 .f32) (x1 : Vec F S128x256 .f32) (x2 : Vec F S1x256 .f32) (xo4 xo5 : Vec F S1x256 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S6400x128) hz, View.ld_unit_zero (S := S128x256) hz, View.ld_unit_zero (S := S1x256) hz]

/-- and the row it found plus its block's column sums of squares in the second. -/
theorem pieceB5 (c : Dev nD) (i : grid0.Coords) (a1 : Memref sig .tc .vmem S6400x128 .f32) (h1 : a1.IsWhole)
    (a2 : Memref sig .tc .vmem S128x256 .f32) (h2 : a2.IsWhole) (a3 : Memref sig .tc .vmem S1x256 .f32) (h3 : a3.IsWhole)
    (a4 : Memref sig .tc .vmem S6400x256 .f32) (h4 : a4.IsWhole) (a5 : Memref sig .tc .vmem S1x256 .f32) (h5 : a5.IsWhole)
    (a6 : Memref sig .tc .vmem S1x256 .f32) (h6 : a6.IsWhole) (hc : ¬cond0_0 i)
    (x0 : Vec F S6400x128 .f32) (x1 : Vec F S128x256 .f32) (x2 : Vec F S1x256 .f32) (xo4 xo5 : Vec F S1x256 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread,
    View.ld_unit_zero (S := S6400x128) hz, View.ld_unit_zero (S := S128x256) hz, View.ld_unit_zero (S := S1x256) hz]

/-- The first point leaves the same block in the big output's buffer, -/
theorem pieceA3 (c : Dev nD) (i : grid0.Coords) (a1 : Memref sig .tc .vmem S6400x128 .f32) (h1 : a1.IsWhole)
    (a2 : Memref sig .tc .vmem S128x256 .f32) (h2 : a2.IsWhole) (a3 : Memref sig .tc .vmem S1x256 .f32) (h3 : a3.IsWhole)
    (a4 : Memref sig .tc .vmem S6400x256 .f32) (h4 : a4.IsWhole) (a5 : Memref sig .tc .vmem S1x256 .f32) (h5 : a5.IsWhole)
    (a6 : Memref sig .tc .vmem S1x256 .f32) (h6 : a6.IsWhole) (hc : cond0_0 i)
    (x0 : Vec F S6400x128 .f32) (x1 : Vec F S128x256 .f32) (x2 : Vec F S1x256 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread, h5.read_unread, h6.read_unread,
    View.ld_unit_zero (S := S6400x128) hz, View.ld_unit_zero (S := S128x256) hz, View.ld_unit_zero (S := S1x256) hz]

/-- and in each one-row buffer the zero row it has just stored there plus its block's sums. -/
theorem pieceA4 (c : Dev nD) (i : grid0.Coords) (a1 : Memref sig .tc .vmem S6400x128 .f32) (h1 : a1.IsWhole)
    (a2 : Memref sig .tc .vmem S128x256 .f32) (h2 : a2.IsWhole) (a3 : Memref sig .tc .vmem S1x256 .f32) (h3 : a3.IsWhole)
    (a4 : Memref sig .tc .vmem S6400x256 .f32) (h4 : a4.IsWhole) (a5 : Memref sig .tc .vmem S1x256 .f32) (h5 : a5.IsWhole)
    (a6 : Memref sig .tc .vmem S1x256 .f32) (h6 : a6.IsWhole) (hc : cond0_0 i)
    (x0 : Vec F S6400x128 .f32) (x1 : Vec F S128x256 .f32) (x2 : Vec F S1x256 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h5.read_unread, h6.read_unread,
    View.ld_unit_zero (S := S6400x128) hz, View.ld_unit_zero (S := S128x256) hz, View.ld_unit_zero (S := S1x256) hz]

theorem pieceA5 (c : Dev nD) (i : grid0.Coords) (a1 : Memref sig .tc .vmem S6400x128 .f32) (h1 : a1.IsWhole)
    (a2 : Memref sig .tc .vmem S128x256 .f32) (h2 : a2.IsWhole) (a3 : Memref sig .tc .vmem S1x256 .f32) (h3 : a3.IsWhole)
    (a4 : Memref sig .tc .vmem S6400x256 .f32) (h4 : a4.IsWhole) (a5 : Memref sig .tc .vmem S1x256 .f32) (h5 : a5.IsWhole)
    (a6 : Memref sig .tc .vmem S1x256 .f32) (h6 : a6.IsWhole) (hc : cond0_0 i)
    (x0 : Vec F S6400x128 .f32) (x1 : Vec F S128x256 .f32) (x2 : Vec F S1x256 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h5.read_unread, h6.read_unread,
    View.ld_unit_zero (S := S6400x128) hz, View.ld_unit_zero (S := S128x256) hz, View.ld_unit_zero (S := S1x256) hz]

end Pieces

/-! ## The stores' arithmetic, read at an index over the extended reals -/

section PayIdeal

/-- The product's dimension numbers: rows of the left operand against columns of the right. -/
abbrev DD := dot_S6400x128_S128x256_S6400x256_1_0_0_1_n_n

theorem lhsDD_0 (j : S6400x256.Idx) (k : DD.contr.Idx) : (DD.lhsIdx j k 0 : ℕ) = j 0 := by
  simp [DotDims.lhsIdx, DD, dot_S6400x128_S128x256_S6400x256_1_0_0_1_n_n]; rfl
theorem lhsDD_1 (j : S6400x256.Idx) (k : DD.contr.Idx) : (DD.lhsIdx j k 1 : ℕ) = k ⟨0, by decide⟩ := by
  simp [DotDims.lhsIdx, DD, dot_S6400x128_S128x256_S6400x256_1_0_0_1_n_n]; rfl
theorem rhsDD_0 (j : S6400x256.Idx) (k : DD.contr.Idx) : (DD.rhsIdx j k 0 : ℕ) = k ⟨0, by decide⟩ := by
  simp [DotDims.rhsIdx, DD, dot_S6400x128_S128x256_S6400x256_1_0_0_1_n_n]; rfl
theorem rhsDD_1 (j : S6400x256.Idx) (k : DD.contr.Idx) : (DD.rhsIdx j k 1 : ℕ) = j 1 := by
  simp [DotDims.rhsIdx, DD, dot_S6400x128_S128x256_S6400x256_1_0_0_1_n_n]; rfl

/-- The contraction's indices are the 128 columns of the left operand. -/
abbrev cE : DD.contr.Idx ≃ Fin 128 := contrEquiv1 DD 128 rfl rfl

theorem lhsDD_eq (r : Fin 6400) (j : Fin 256) (k : Fin 128) : DD.lhsIdx (ix2 r j) (cE.symm k) = ix2 r k := by
  apply Shape.idx_ext₂
  · rw [lhsDD_0]
  · rw [lhsDD_1]; exact contrEquiv1_symm_val DD 128 rfl rfl k

theorem rhsDD_eq (r : Fin 6400) (j : Fin 256) (k : Fin 128) : DD.rhsIdx (ix2 r j) (cE.symm k) = ix2 k j := by
  apply Shape.idx_ext₂
  · rw [rhsDD_0]; exact contrEquiv1_symm_val DD 128 rfl rfl k
  · rw [rhsDD_1]

/-- One point's block of the product: row r, column j is the row of x against the column of w, plus b. -/
theorem pay3_apply (x0 : Vec Ideal S6400x128 .f32) (x1 : Vec Ideal S128x256 .f32) (x2 : Vec Ideal S1x256 .f32)
    (r : Fin 6400) (j : Fin 256) :
    k0_pay3 x0 x1 x2 (ix2 r j) = (∑ k : Fin 128, x0 (ix2 r k) * x1 (ix2 k j)) + x2 (ix2 (0 : Fin 1) j) := by
  unfold k0_pay3
  refine (addf_apply _ _ _).trans ?_
  refine congrArg₂ (· + ·) ?_ ?_
  · refine (Ideal.matmul_constant_zero_apply DD none _ _ (ix2 r j)).trans ?_
    refine (Equiv.sum_comp cE.symm _).symm.trans ?_
    refine Finset.sum_congr rfl fun k _ => ?_
    rw [lhsDD_eq, rhsDD_eq, shapeCast_self]
    rfl
  · refine (broadcastTo_1b_ab_apply _ _ r j).trans ?_
    rw [shapeCast_self]

end PayIdeal

section PayIdeal2

/-- Adding a row of column sums: the store to the first one-row output leaves, at column j, what was there plus the
    sum down the block's column j. -/
theorem pay4_apply (x0 : Vec Ideal S6400x128 .f32) (x1 : Vec Ideal S128x256 .f32) (x2 : Vec Ideal S1x256 .f32)
    (acc : Vec Ideal S1x256 .f32) (u : Fin 1) (j : Fin 256) :
    k0_pay4 x0 x1 x2 acc (ix2 u j) = acc (ix2 u j) + ∑ r : Fin 6400, k0_pay3 x0 x1 x2 (ix2 r j) := by
  unfold k0_pay4
  refine (addf_apply _ _ _).trans ?_
  refine congrArg₂ (· + ·) ?_ ?_
  · rw [shapeCast_self]
  · refine (shapeCast_a_1a_apply _ _ u j).trans ?_
    refine (Ideal.multiReduction_add_single (k0_pay3 x0 x1 x2) 0x00000000#32 reduces_S6400x256_S256 (.inl rfl) rfl (ix1 j)).trans ?_
    refine Finset.sum_congr rfl fun r _ => ?_
    refine congrArg (k0_pay3 x0 x1 x2) ?_
    apply Shape.idx_ext₂ <;> rfl

/-- The same for the squares. -/
theorem pay5_apply (x0 : Vec Ideal S6400x128 .f32) (x1 : Vec Ideal S128x256 .f32) (x2 : Vec Ideal S1x256 .f32)
    (acc : Vec Ideal S1x256 .f32) (u : Fin 1) (j : Fin 256) :
    k0_pay5 x0 x1 x2 acc (ix2 u j)
      = acc (ix2 u j) + ∑ r : Fin 6400, k0_pay3 x0 x1 x2 (ix2 r j) * k0_pay3 x0 x1 x2 (ix2 r j) := by
  unfold k0_pay5
  refine (addf_apply _ _ _).trans ?_
  refine congrArg₂ (· + ·) ?_ ?_
  · rw [shapeCast_self]
  · refine (shapeCast_a_1a_apply _ _ u j).trans ?_
    refine (Ideal.multiReduction_add_single (mulf (k0_pay3 x0 x1 x2) (k0_pay3 x0 x1 x2)) 0x00000000#32 reduces_S6400x256_S256 (.inl rfl) rfl (ix1 j)).trans ?_
    refine Finset.sum_congr rfl fun r _ => ?_
    refine (mulf_apply _ _ _).trans ?_
    have e : reduces_S6400x256_S256.lift (ix1 j) r = ix2 r j := by apply Shape.idx_ext₂ <;> rfl
    rw [e]
    rfl

/-- The reset rows are zero. -/
theorem pay1_apply (i : S1x256.Idx) : (k0_pay1 (F := Ideal)) i = 0 := by
  unfold k0_pay1
  exact Ideal.ofBits_zero_f32
theorem pay2_apply (i : S1x256.Idx) : (k0_pay2 (F := Ideal)) i = 0 := by
  unfold k0_pay2
  exact Ideal.ofBits_zero_f32

end PayIdeal2

/-! ## The windows' blocks, read off the arrays -/

section Blocks

/-- Where the blocks sit: the big input's and the big output's at row block t; the others never move. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = t.val ∧ win0_3.index t 1 = 0 :=
  (by decide +kernel : ∀ t : Fin grid0.N, win0_3.index t 0 = t.val ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)

/-- Row r of point t's block of x is row 6400·t + r of x. -/
theorem xblk_apply (c : Dev nD) (t : Fin cfg0.N) (r : Fin 6400) (k : Fin 128) (h : 6400 * t.val + r.val < 800000) :
    (iblk0 V c 0 t : Vec Ideal S6400x128 .f32) (ix2 r k) = V c main_v18 (ix2 ⟨6400 * t.val + r.val, h⟩ k) := by
  have hi := idx0_0 t
  unfold iblk0
  rw [View.read_apply]
  show V c main_v18 _ = V c main_v18 _
  congr 1
  funext a
  apply Fin.ext
  match a with
  | ⟨0, _⟩ => show win0_0.index t 0 * 6400 + 1 * r.val = 6400 * t.val + r.val; rw [hi.1]; omega
  | ⟨1, _⟩ => show win0_0.index t 1 * 128 + 1 * k.val = k.val; rw [hi.2]; omega

/-- Every point's block of w is w. -/
theorem wblk_apply (c : Dev nD) (t : Fin cfg0.N) (k : Fin 128) (j : Fin 256) :
    (iblk0 V c 1 t : Vec Ideal S128x256 .f32) (ix2 k j) = V c main_arg2 (ix2 k j) := by
  have hi := idx0_1 t
  unfold iblk0
  rw [View.read_apply]
  show V c main_arg2 _ = V c main_arg2 _
  congr 1
  funext a
  apply Fin.ext
  match a with
  | ⟨0, _⟩ => show win0_1.index t 0 * 128 + 1 * k.val = k.val; rw [hi.1]; omega
  | ⟨1, _⟩ => show win0_1.index t 1 * 256 + 1 * j.val = j.val; rw [hi.2]; omega

/-- Every point's block of b is b. -/
theorem bblk_apply (c : Dev nD) (t : Fin cfg0.N) (u : Fin 1) (j : Fin 256) :
    (iblk0 V c 2 t : Vec Ideal S1x256 .f32) (ix2 u j) = V c main_v19 (ix2 u j) := by
  have hi := idx0_2 t
  unfold iblk0
  rw [View.read_apply]
  show V c main_v19 _ = V c main_v19 _
  congr 1
  funext a
  apply Fin.ext
  match a with
  | ⟨0, _⟩ => show win0_2.index t 0 * 1 + 1 * u.val = u.val; rw [hi.1]; omega
  | ⟨1, _⟩ => show win0_2.index t 1 * 256 + 1 * j.val = j.val; rw [hi.2]; omega

end Blocks

/-! ## The run: what the three outputs hold after each point -/

section Run

/-- A point's three input blocks. -/
abbrev xblk (c : Dev nD) (t : Fin cfg0.N) : Vec Ideal S6400x128 .f32 := iblk0 V c 0 t
abbrev wblk (c : Dev nD) (t : Fin cfg0.N) : Vec Ideal S128x256 .f32 := iblk0 V c 1 t
abbrev bblk (c : Dev nD) (t : Fin cfg0.N) : Vec Ideal S1x256 .f32 := iblk0 V c 2 t

/-- Column j of the layer's output at row e, for every natural e (zero past the last row), so that sums over row
    blocks carry no bounds. -/
def rowOf (c : Dev nD) (j : Fin 256) (e : ℕ) : EReal := if h : e < 800000 then out V c ⟨e, h⟩ j else 0

/-- Row r of the block point t computes is row 6400·t + r of the layer's output. -/
theorem hblk_apply (c : Dev nD) (t : Fin cfg0.N) (r : Fin 6400) (j : Fin 256) :
    k0_pay3 (xblk V c t) (wblk V c t) (bblk V c t) (ix2 r j) = rowOf V c j (6400 * t.val + r.val) := by
  have hN : t.val < 125 := lt_of_lt_of_eq t.isLt (show cfg0.N = 125 from N_0)
  have h : 6400 * t.val + r.val < 800000 := by have := r.isLt; omega
  refine (pay3_apply (xblk V c t) (wblk V c t) (bblk V c t) r j).trans ?_
  unfold rowOf
  rw [dif_pos h]
  unfold out lin ofArr
  refine congrArg₂ (· + ·) (Finset.sum_congr rfl fun k _ => ?_) (bblk_apply V c t 0 j)
  exact congrArg₂ (· * ·) (xblk_apply V c t r k h) (wblk_apply V c t k j)

/-- After any point the big output's buffer holds that point's block of the product. -/
theorem after3_eq (c : Dev nD) (t : Fin cfg0.N) :
    (outsAt0 V c t.val t.isLt).1 = k0_pay3 (xblk V c t) (wblk V c t) (bblk V c t) := by
  by_cases h0 : t.val % 125 = 0
  · rw [outsAt0_A V c t h0]
    dsimp only
    exact pieceA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact pieceB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- The first point leaves the block's column sums in the first one-row output, -/
theorem A4_apply (c : Dev nD) (t : Fin cfg0.N) (h0 : t.val % 125 = 0) (u : Fin 1) (j : Fin 256) :
    (outsAt0 V c t.val t.isLt).2.1 (ix2 u j) = ∑ r : Fin 6400, rowOf V c j (6400 * t.val + r.val) := by
  rw [outsAt0_A V c t h0]
  dsimp only
  refine (congrFun (pieceA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) (ix2 u j)).trans ?_
  refine (pay4_apply (xblk V c t) (wblk V c t) (bblk V c t) (k0_pay1 (F := Ideal)) u j).trans ?_
  rw [pay1_apply, zero_add]
  exact Finset.sum_congr rfl fun r _ => hblk_apply V c t r j

/-- and every later point adds its block's column sums to what the point before left. -/
theorem B4_apply (c : Dev nD) (t : Fin cfg0.N) (h0 : ¬t.val % 125 = 0) (u : Fin 1) (j : Fin 256) :
    (outsAt0 V c t.val t.isLt).2.1 (ix2 u j)
      = (outsAt0 V c (t.val - 1) (Nat.lt_of_le_of_lt (Nat.sub_le _ _) t.isLt)).2.1 (ix2 u j) + ∑ r : Fin 6400, rowOf V c j (6400 * t.val + r.val) := by
  rw [outsAt0_B V c t h0]
  dsimp only
  refine (congrFun (pieceB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) (ix2 u j)).trans ?_
  refine (pay4_apply (xblk V c t) (wblk V c t) (bblk V c t) (outsAt0 V c (t.val - 1) (Nat.lt_of_le_of_lt (Nat.sub_le _ _) t.isLt)).2.1 u j).trans ?_
  exact congrArg (_ + ·) (Finset.sum_congr rfl fun r _ => hblk_apply V c t r j)

/-- The same two for the squares. -/
theorem A5_apply (c : Dev nD) (t : Fin cfg0.N) (h0 : t.val % 125 = 0) (u : Fin 1) (j : Fin 256) :
    (outsAt0 V c t.val t.isLt).2.2 (ix2 u j)
      = ∑ r : Fin 6400, rowOf V c j (6400 * t.val + r.val) * rowOf V c j (6400 * t.val + r.val) := by
  rw [outsAt0_A V c t h0]
  dsimp only
  refine (congrFun (pieceA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) (ix2 u j)).trans ?_
  refine (pay5_apply (xblk V c t) (wblk V c t) (bblk V c t) (k0_pay2 (F := Ideal)) u j).trans ?_
  rw [pay2_apply, zero_add]
  exact Finset.sum_congr rfl fun r _ => by rw [hblk_apply V c t r j]

theorem B5_apply (c : Dev nD) (t : Fin cfg0.N) (h0 : ¬t.val % 125 = 0) (u : Fin 1) (j : Fin 256) :
    (outsAt0 V c t.val t.isLt).2.2 (ix2 u j)
      = (outsAt0 V c (t.val - 1) (Nat.lt_of_le_of_lt (Nat.sub_le _ _) t.isLt)).2.2 (ix2 u j)
        + ∑ r : Fin 6400, rowOf V c j (6400 * t.val + r.val) * rowOf V c j (6400 * t.val + r.val) := by
  rw [outsAt0_B V c t h0]
  dsimp only
  refine (congrFun (pieceB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) (ix2 u j)).trans ?_
  refine (pay5_apply (xblk V c t) (wblk V c t) (bblk V c t) (outsAt0 V c (t.val - 1) (Nat.lt_of_le_of_lt (Nat.sub_le _ _) t.isLt)).2.2 u j).trans ?_
  exact congrArg (_ + ·) (Finset.sum_congr rfl fun r _ => by rw [hblk_apply V c t r j])

end Run

/-! ## The whole run -/

section Whole

/-- After point n the first one-row output holds the column sums of the rows of blocks 0 … n: by induction on the
    point, the first resetting and every later one adding. -/
theorem sum_at (c : Dev nD) (u : Fin 1) (j : Fin 256) : ∀ (n : ℕ) (hn : n < cfg0.N),
    (outsAt0 V c n hn).2.1 (ix2 u j) = ∑ s ∈ Finset.range (n + 1), ∑ r : Fin 6400, rowOf V c j (6400 * s + r.val)
  | 0, hn => by
    rw [Finset.sum_range_one]
    exact A4_apply V c ⟨0, hn⟩ (Nat.zero_mod _) u j
  | n + 1, hn => by
    have hn' : n + 1 < 125 := lt_of_lt_of_eq hn (show cfg0.N = 125 from N_0)
    have hB : ¬(⟨n + 1, hn⟩ : Fin cfg0.N).val % 125 = 0 := by dsimp only; omega
    rw [Finset.sum_range_succ, ← sum_at c u j n (Nat.lt_of_succ_lt hn)]
    exact B4_apply V c ⟨n + 1, hn⟩ hB u j

/-- The same for the squares. -/
theorem sumsq_at (c : Dev nD) (u : Fin 1) (j : Fin 256) : ∀ (n : ℕ) (hn : n < cfg0.N),
    (outsAt0 V c n hn).2.2 (ix2 u j)
      = ∑ s ∈ Finset.range (n + 1), ∑ r : Fin 6400, rowOf V c j (6400 * s + r.val) * rowOf V c j (6400 * s + r.val)
  | 0, hn => by
    rw [Finset.sum_range_one]
    exact A5_apply V c ⟨0, hn⟩ (Nat.zero_mod _) u j
  | n + 1, hn => by
    have hn' : n + 1 < 125 := lt_of_lt_of_eq hn (show cfg0.N = 125 from N_0)
    have hB : ¬(⟨n + 1, hn⟩ : Fin cfg0.N).val % 125 = 0 := by dsimp only; omega
    rw [Finset.sum_range_succ, ← sumsq_at c u j n (Nat.lt_of_succ_lt hn)]
    exact B5_apply V c ⟨n + 1, hn⟩ hB u j

/-- The 125 blocks of 6400 rows are the 800000 rows: the blockwise sums are the column sums. -/
theorem rowOf_sum (c : Dev nD) (j : Fin 256) :
    (∑ s ∈ Finset.range 125, ∑ r : Fin 6400, rowOf V c j (6400 * s + r.val)) = colSum (out V c) j := by
  refine (sum_blocks 125 6400 (rowOf V c j)).trans ?_
  show (∑ e : Fin 800000, rowOf V c j e.val) = ∑ e : Fin 800000, out V c e j
  refine Finset.sum_congr rfl fun e _ => ?_
  unfold rowOf
  rw [dif_pos e.isLt]

theorem rowOf_sumsq (c : Dev nD) (j : Fin 256) :
    (∑ s ∈ Finset.range 125, ∑ r : Fin 6400, rowOf V c j (6400 * s + r.val) * rowOf V c j (6400 * s + r.val))
      = colSumSq (out V c) j := by
  refine (sum_blocks 125 6400 (fun e => rowOf V c j e * rowOf V c j e)).trans ?_
  show (∑ e : Fin 800000, rowOf V c j e.val * rowOf V c j e.val) = ∑ e : Fin 800000, out V c e j * out V c e j
  refine Finset.sum_congr rfl fun e _ => ?_
  unfold rowOf
  rw [dif_pos e.isLt]

/-- What the three output arrays end holding. -/
abbrev G3 (c : Dev nD) : Buf (Elt Ideal) ((c : Thread nD τ).loc main_v22_0) :=
  fun (i : S800000x256.Idx) => out V c (i 0) (i 1)
abbrev G4 (c : Dev nD) : Buf (Elt Ideal) ((c : Thread nD τ).loc main_v22_1) :=
  fun (i : S1x256.Idx) => colSum (out V c) (i 1)
abbrev G5 (c : Dev nD) : Buf (Elt Ideal) ((c : Thread nD τ).loc main_v22_2) :=
  fun (i : S1x256.Idx) => colSumSq (out V c) (i 1)

/-- The one write-back of the first one-row output, after the last point, writes the column sums: its block is the
    whole one-row array. -/
theorem flushed4_eq (c : Dev nD) (t : Fin cfg0.N) (hf : (cfg0.win 4).flush t = true) :
    (dat0 V c).flushed 4 t = ((cfg0.win 4).blk t).view.read (Elt Ideal) (G4 V c) := by
  have hN : cfg0.N = 125 := N_0
  have h124 : t.val = 124 := by have := (flush0_4 t).mp hf; have := t.isLt; omega
  show (cfg0.win 4).cut (grid0.coords t) ((dat0 V c).after 4 t) = _
  rw [after0_4]
  have hz' : (fun a => win0_4.index t a * main_v22_1.ty.shape.size a) = fun _ => 0 := funext fun a => by
    match a with
    | ⟨0, _⟩ => show win0_4.index t 0 * 1 = 0; rw [(idx0_4 t).1]
    | ⟨1, _⟩ => show win0_4.index t 1 * 256 = 0; rw [(idx0_4 t).2]
  refine Eq.trans ?_ (Memref.read_access_unit_zero (Elt Ideal) main_v22_1 hz' (fun a => by rw [congrFun hz' a]; simp) (G4 V c)).symm
  funext i
  obtain ⟨u, j, rfl⟩ : ∃ (u : Fin 1) (j : Fin 256), i = ix2 u j := ⟨i 0, i 1, eq_ix2 i⟩
  show (outsAt0 V c t.val t.isLt).2.1 (ix2 u j) = colSum (out V c) j
  have key : ∀ (n : ℕ) (hn : n < cfg0.N), n = 124 → (outsAt0 V c n hn).2.1 (ix2 u j) = colSum (out V c) j := by
    intro n hn e
    subst e
    rw [sum_at V c u j 124 hn]
    exact rowOf_sum V c j
  exact key t.val t.isLt h124

/-- The same for the squares. -/
theorem flushed5_eq (c : Dev nD) (t : Fin cfg0.N) (hf : (cfg0.win 5).flush t = true) :
    (dat0 V c).flushed 5 t = ((cfg0.win 5).blk t).view.read (Elt Ideal) (G5 V c) := by
  have hN : cfg0.N = 125 := N_0
  have h124 : t.val = 124 := by have := (flush0_5 t).mp hf; have := t.isLt; omega
  show (cfg0.win 5).cut (grid0.coords t) ((dat0 V c).after 5 t) = _
  rw [after0_5]
  have hz' : (fun a => win0_5.index t a * main_v22_2.ty.shape.size a) = fun _ => 0 := funext fun a => by
    match a with
    | ⟨0, _⟩ => show win0_5.index t 0 * 1 = 0; rw [(idx0_5 t).1]
    | ⟨1, _⟩ => show win0_5.index t 1 * 256 = 0; rw [(idx0_5 t).2]
  refine Eq.trans ?_ (Memref.read_access_unit_zero (Elt Ideal) main_v22_2 hz' (fun a => by rw [congrFun hz' a]; simp) (G5 V c)).symm
  funext i
  obtain ⟨u, j, rfl⟩ : ∃ (u : Fin 1) (j : Fin 256), i = ix2 u j := ⟨i 0, i 1, eq_ix2 i⟩
  show (outsAt0 V c t.val t.isLt).2.2 (ix2 u j) = colSumSq (out V c) j
  have key : ∀ (n : ℕ) (hn : n < cfg0.N), n = 124 → (outsAt0 V c n hn).2.2 (ix2 u j) = colSumSq (out V c) j := by
    intro n hn e
    subst e
    rw [sumsq_at V c u j 124 hn]
    exact rowOf_sumsq V c j
  exact key t.val t.isLt h124

/-- The last point. -/
def tLast : Fin cfg0.N := ⟨124, by rw [show cfg0.N = 125 from N_0]; decide⟩

/-- The last point's block of a one-row output is the whole row. -/
theorem cover4 (i : S1x256.Idx) :
    ∃ t : Fin cfg0.N, (cfg0.win 4).flush t = true ∧ i ∈ ((cfg0.win 4).blk t).view.set := by
  refine ⟨tLast, (flush0_4 tLast).mpr rfl, ?_⟩
  show i ∈ ((View.whole main_v22_1).slice (win0_4.rect tLast)).set
  rw [View.set_slice_whole, Rect.mem_set_unit]
  intro a
  have h0 : (i 0 : Nat) < 1 := (i 0).isLt
  have h1 : (i 1 : Nat) < 256 := (i 1).isLt
  match a with
  | ⟨0, _⟩ =>
    show win0_4.index tLast 0 * 1 ≤ (i 0 : Nat) ∧ (i 0 : Nat) < win0_4.index tLast 0 * 1 + 1
    rw [(idx0_4 tLast).1]; omega
  | ⟨1, _⟩ =>
    show win0_4.index tLast 1 * 256 ≤ (i 1 : Nat) ∧ (i 1 : Nat) < win0_4.index tLast 1 * 256 + 256
    rw [(idx0_4 tLast).2]; omega

theorem cover5 (i : S1x256.Idx) :
    ∃ t : Fin cfg0.N, (cfg0.win 5).flush t = true ∧ i ∈ ((cfg0.win 5).blk t).view.set := by
  refine ⟨tLast, (flush0_5 tLast).mpr rfl, ?_⟩
  show i ∈ ((View.whole main_v22_2).slice (win0_5.rect tLast)).set
  rw [View.set_slice_whole, Rect.mem_set_unit]
  intro a
  have h0 : (i 0 : Nat) < 1 := (i 0).isLt
  have h1 : (i 1 : Nat) < 256 := (i 1).isLt
  match a with
  | ⟨0, _⟩ =>
    show win0_5.index tLast 0 * 1 ≤ (i 0 : Nat) ∧ (i 0 : Nat) < win0_5.index tLast 0 * 1 + 1
    rw [(idx0_5 tLast).1]; omega
  | ⟨1, _⟩ =>
    show win0_5.index tLast 1 * 256 ≤ (i 1 : Nat) ∧ (i 1 : Nat) < win0_5.index tLast 1 * 256 + 256
    rw [(idx0_5 tLast).2]; omega

/-- Every point writes back its block of the big output: rows 6400·t … 6400·t + 6399 of the layer's output. -/
theorem flushed3_eq (c : Dev nD) (t : Fin cfg0.N) (hf : (cfg0.win 3).flush t = true) :
    (dat0 V c).flushed 3 t = ((cfg0.win 3).blk t).view.read (Elt Ideal) (G3 V c) := by
  have hN : t.val < 125 := lt_of_lt_of_eq t.isLt (show cfg0.N = 125 from N_0)
  show (cfg0.win 3).cut (grid0.coords t) ((dat0 V c).after 3 t) = _
  rw [after0_3, after3_eq]
  funext y
  obtain ⟨r, j, rfl⟩ : ∃ (r : Fin 6400) (j : Fin 256), y = ix2 r j := ⟨y 0, y 1, eq_ix2 y⟩
  rw [View.read_apply]
  have h : 6400 * t.val + r.val < 800000 := by have := r.isLt; omega
  show k0_pay3 (xblk V c t) (wblk V c t) (bblk V c t) (ix2 r j) = out V c _ _
  refine (hblk_apply V c t r j).trans ?_
  unfold rowOf
  rw [dif_pos h]
  refine congrArg₂ (out V c) (Fin.ext ?_) (Fin.ext ?_)
  · show 6400 * t.val + r.val = win0_3.index t 0 * 6400 + 1 * r.val
    rw [(idx0_3 t).1]; omega
  · show j.val = win0_3.index t 1 * 256 + 1 * j.val
    rw [(idx0_3 t).2]; omega

/-- Row e lies in the block of point e / 6400. -/
theorem cover3 (i : S800000x256.Idx) :
    ∃ t : Fin cfg0.N, (cfg0.win 3).flush t = true ∧ i ∈ ((cfg0.win 3).blk t).view.set := by
  have h0 : (i 0 : Nat) < 800000 := (i 0).isLt
  have h1 : (i 1 : Nat) < 256 := (i 1).isLt
  have hq : (i 0 : Nat) / 6400 < cfg0.N := by rw [show cfg0.N = 125 from N_0]; omega
  obtain ⟨tq, htq⟩ : ∃ tq : Fin cfg0.N, tq.val = (i 0 : Nat) / 6400 := ⟨⟨_, hq⟩, rfl⟩
  refine ⟨tq, flush0_3 tq, ?_⟩
  show i ∈ ((View.whole main_v22_0).slice (win0_3.rect tq)).set
  rw [View.set_slice_whole, Rect.mem_set_unit]
  intro a
  match a with
  | ⟨0, _⟩ =>
    show win0_3.index tq 0 * 6400 ≤ (i 0 : Nat) ∧ (i 0 : Nat) < win0_3.index tq 0 * 6400 + 6400
    rw [(idx0_3 tq).1, htq]; omega
  | ⟨1, _⟩ =>
    show win0_3.index tq 1 * 256 ≤ (i 1 : Nat) ∧ (i 1 : Nat) < win0_3.index tq 1 * 256 + 256
    rw [(idx0_3 tq).2]; omega

end Whole

/-- The big output ends holding the layer's output. -/
theorem h_final (c : Dev nD) : (dat0 V c).arrAt 3 cfg0.N = fun (i : S800000x256.Idx) => out V c (i 0) (i 1) :=
  (dat0 V c).arrAt_eq_of_cover 3 (G3 V c) (flushed3_eq V c) (fun i => cover3 i)

/-- The first one-row output ends holding the column sums. -/
theorem sum_final (c : Dev nD) : (dat0 V c).arrAt 4 cfg0.N = fun (i : S1x256.Idx) => colSum (out V c) (i 1) :=
  (dat0 V c).arrAt_eq_of_cover 4 (G4 V c) (flushed4_eq V c) (fun i => cover4 i)

/-- The second one-row output ends holding the column sums of squares. -/
theorem sumsq_final (c : Dev nD) : (dat0 V c).arrAt 5 cfg0.N = fun (i : S1x256.Idx) => colSumSq (out V c) (i 1) :=
  (dat0 V c).arrAt_eq_of_cover 5 (G5 V c) (flushed5_eq V c) (fun i => cover5 i)

end Cert.KernelIdeal.Layer1

end
-- ==== Proof.Layer2.lean ====
/-
  The second region: the same 125 blocks of rows. A point normalises its block of the previous layer's output with the
  mean and variance rows it is given, clips at zero, multiplies by the weights and adds the bias; the two one-row
  outputs again accumulate the column sums and column sums of squares of what it stores.
-/
import proofs.«150829_j41841571397745_1_alg».proof.Proof.Gen.KernelIdeal.Frame
import proofs.«150829_j41841571397745_1_alg».proof.Proof.Spec
import proofs.«150829_j41841571397745_1_alg».proof.Proof.Laws
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Layer2

open Cert.KernelIdeal Cert.KernelIdeal.Gen Cert.NormMlp
open Idealize.ShloMosaic Idealize.ShloMosaic.TcCoe Idealize.ShloMosaic.ValueIdx Idealize.SL.Sem
open Idealize.ShloMosaic.Pipeline (Dat)

-- the buffer contents the region is entered with: a parameter
variable (V : (c : Dev nD) → (b : Ref sig .tc) → Buf (Elt Ideal) ((c : Thread nD τ).loc b))

/-- The second layer's output, from the region's five input arrays. -/
def out (c : Dev nD) : Mat 800000 64 :=
  lin (normAct eps (ofArr (a := 800000) (b := 256) (V c main_v22_0)) (fun k => V c main_v24 (ix2 (0 : Fin 1) k))
        (fun k => V c main_v28 (ix2 (0 : Fin 1) k)))
    (ofArr (a := 256) (b := 64) (V c main_arg4)) (fun j => V c main_v20 (ix2 (0 : Fin 1) j))

/-! ## What each case leaves in the three output buffers, as the stores' arithmetic -/

section Pieces
variable {F : FTy → Type} [FloatOps F]

theorem hz : (![0, 0] : Fin 2 → Nat) = fun _ => 0 := funext fun a => by fin_cases a <;> rfl

/-- First point, the block of the layer's output: the one covering store's value over the five input blocks. -/
theorem pieceA5 (c : Dev nD) (i : grid1.Coords) (a1 : Memref sig .tc .vmem S6400x256 .f32) (h1 : a1.IsWhole) (a2 : Memref sig .tc .vmem S1x256 .f32) (h2 : a2.IsWhole) (a3 : Memref sig .tc .vmem S1x256 .f32) (h3 : a3.IsWhole) (a4 : Memref sig .tc .vmem S256x64 .f32) (h4 : a4.IsWhole) (a5 : Memref sig .tc .vmem S1x64 .f32) (h5 : a5.IsWhole) (a6 : Memref sig .tc .vmem S6400x64 .f32) (h6 : a6.IsWhole) (a7 : Memref sig .tc .vmem S1x64 .f32) (h7 : a7.IsWhole) (a8 : Memref sig .tc .vmem S1x64 .f32) (h8 : a8.IsWhole) (hc : cond1_0 i) (x0 : Vec F S6400x256 .f32) (x1 : Vec F S1x256 .f32) (x2 : Vec F S1x256 .f32) (x3 : Vec F S256x64 .f32) (x4 : Vec F S1x64 .f32) :
    out1_A_5 c i a1 h1 a2 h2 a3 h3 a4 h4 a5 h5 a6 h6 a7 h7 a8 h8 hc x0 x1 x2 x3 x4 = k1_pay4 x0 x1 x2 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz]
  simp only [View.readAt_eq_ld, h1.read_unread, h2.read_unread, h3.read_unread, h4.read_unread, h5.read_unread, View.ld_unit_zero (S := S6400x256) hz, View.ld_unit_zero (S := S1x256) hz, View.ld_unit_zero (S := S256x64) hz, View.ld_unit_zero (S := S1x64) hz]

/-- First point, the row of column sums: the zero row is stored, read back, and the block's column sums added to it. -/
theorem pieceA6 (c : Dev nD) (i : grid1.Coords) (a1 : Memref sig .tc .vmem S6400x256 .f32) (h1 : a1.IsWhole) (a2 : Memref sig .tc .vmem S1x256 .f32) (h2 : a2.IsWhole) (a3 : Memref sig .tc .vmem S1x256 .f32) (h3 : a3.IsWhole) (a4 : Memref sig .tc .vmem S256x64 .f32) (h4 : a4.IsWhole) (a5 : Memref sig .tc .vmem S1x64 .f32) (h5 : a5.IsWhole) (a6 : Memref sig .tc .vmem S6400x64 .f32) (h6 : a6.IsWhole) (a7 : Memref sig .tc .vmem S1x64 .f32) (h7 : a7.IsWhole) (a8 : Memref sig .tc .vmem S1x64 .f32) (h8 : a8.IsWhole) (hc : cond1_0 i) (x0 : Vec F S6400x256 .f32) (x1 : Vec F S1x256 .f32) (x2 : Vec F S1x256 .f32) (x3 : Vec F S256x64 .f32) (x4 : Vec F S1x64 .f32) :
    out1_A_6 c i a1 h1 a2 h2 a3 h3 a4 h4 a5 h5 a6 h6 a7 h7 a8 h8 hc x0 x1 x2 x3 x4 = k1_pay5 x0 x1 x2 x3 x4 k1_pay2 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, View.ld_unit_zero (S := S6400x256) hz, View.ld_unit_zero (S := S1x256) hz, View.ld_unit_zero (S := S256x64) hz, View.ld_unit_zero (S := S1x64) hz]

/-- First point, the row of column sums of squares: the same over the zero row. -/
theorem pieceA7 (c : Dev nD) (i : grid1.Coords) (a1 : Memref sig .tc .vmem S6400x256 .f32) (h1 : a1.IsWhole) (a2 : Memref sig .tc .vmem S1x256 .f32) (h2 : a2.IsWhole) (a3 : Memref sig .tc .vmem S1x256 .f32) (h3 : a3.IsWhole) (a4 : Memref sig .tc .vmem S256x64 .f32) (h4 : a4.IsWhole) (a5 : Memref sig .tc .vmem S1x64 .f32) (h5 : a5.IsWhole) (a6 : Memref sig .tc .vmem S6400x64 .f32) (h6 : a6.IsWhole) (a7 : Memref sig .tc .vmem S1x64 .f32) (h7 : a7.IsWhole) (a8 : Memref sig .tc .vmem S1x64 .f32) (h8 : a8.IsWhole) (hc : cond1_0 i) (x0 : Vec F S6400x256 .f32) (x1 : Vec F S1x256 .f32) (x2 : Vec F S1x256 .f32) (x3 : Vec F S256x64 .f32) (x4 : Vec F S1x64 .f32) :
    out1_A_7 c i a1 h1 a2 h2 a3 h3 a4 h4 a5 h5 a6 h6 a7 h7 a8 h8 hc x0 x1 x2 x3 x4 = k1_pay1 (k1_pay4 x0 x1 x2 x3 x4) k1_pay3 := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, View.ld_unit_zero (S := S6400x256) hz, View.ld_unit_zero (S := S1x256) hz, View.ld_unit_zero (S := S256x64) hz, View.ld_unit_zero (S := S1x64) hz]

/-- A later point, the block of the layer's output. -/
theorem pieceB5 (c : Dev nD) (i : grid1.Coords) (a1 : Memref sig .tc .vmem S6400x256 .f32) (h1 : a1.IsWhole) (a2 : Memref sig .tc .vmem S1x256 .f32) (h2 : a2.IsWhole) (a3 : Memref sig .tc .vmem S1x256 .f32) (h3 : a3.IsWhole) (a4 : Memref sig .tc .vmem S256x64 .f32) (h4 : a4.IsWhole) (a5 : Memref sig .tc .vmem S1x64 .f32) (h5 : a5.IsWhole) (a6 : Memref sig .tc .vmem S6400x64 .f32) (h6 : a6.IsWhole) (a7 : Memref sig .tc .vmem S1x64 .f32) (h7 : a7.IsWhole) (a8 : Memref sig .tc .vmem S1x64 .f32) (h8 : a8.IsWhole) (hc : ¬cond1_0 i) (x0 : Vec F S6400x256 .f32) (x1 : Vec F S1x256 .f32) (x2 : Vec F S1x256 .f32) (x3 : Vec F S256x64 .f32) (x4 : Vec F S1x64 .f32) (xo6 : Vec F S1x64 .f32) (xo7 : Vec F S1x64 .f32) :
    out1_B_5 c i a1 h1 a2 h2 a3 h3 a4 h4 a5 h5 a6 h6 a7 h7 a8 h8 hc x0 x1 x2 x3 x4 xo6 xo7 = k1_pay4 x0 x1 x2 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, View.ld_unit_zero (S := S6400x256) hz, View.ld_unit_zero (S := S1x256) hz, View.ld_unit_zero (S := S256x64) hz, View.ld_unit_zero (S := S1x64) hz]

/-- A later point, the row of column sums: the block's column sums added to what the point before left. -/
theorem pieceB6 (c : Dev nD) (i : grid1.Coords) (a1 : Memref sig .tc .vmem S6400x256 .f32) (h1 : a1.IsWhole) (a2 : Memref sig .tc .vmem S1x256 .f32) (h2 : a2.IsWhole) (a3 : Memref sig .tc .vmem S1x256 .f32) (h3 : a3.IsWhole) (a4 : Memref sig .tc .vmem S256x64 .f32) (h4 : a4.IsWhole) (a5 : Memref sig .tc .vmem S1x64 .f32) (h5 : a5.IsWhole) (a6 : Memref sig .tc .vmem S6400x64 .f32) (h6 : a6.IsWhole) (a7 : Memref sig .tc .vmem S1x64 .f32) (h7 : a7.IsWhole) (a8 : Memref sig .tc .vmem S1x64 .f32) (h8 : a8.IsWhole) (hc : ¬cond1_0 i) (x0 : Vec F S6400x256 .f32) (x1 : Vec F S1x256 .f32) (x2 : Vec F S1x256 .f32) (x3 : Vec F S256x64 .f32) (x4 : Vec F S1x64 .f32) (xo6 : Vec F S1x64 .f32) (xo7 : Vec F S1x64 .f32) :
    out1_B_6 c i a1 h1 a2 h2 a3 h3 a4 h4 a5 h5 a6 h6 a7 h7 a8 h8 hc x0 x1 x2 x3 x4 xo6 xo7 = k1_pay5 x0 x1 x2 x3 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, h7.read_unread, View.ld_unit_zero (S := S6400x256) hz, View.ld_unit_zero (S := S1x256) hz, View.ld_unit_zero (S := S256x64) hz, View.ld_unit_zero (S := S1x64) hz]

/-- A later point, the row of column sums of squares. -/
theorem pieceB7 (c : Dev nD) (i : grid1.Coords) (a1 : Memref sig .tc .vmem S6400x256 .f32) (h1 : a1.IsWhole) (a2 : Memref sig .tc .vmem S1x256 .f32) (h2 : a2.IsWhole) (a3 : Memref sig .tc .vmem S1x256 .f32) (h3 : a3.IsWhole) (a4 : Memref sig .tc .vmem S256x64 .f32) (h4 : a4.IsWhole) (a5 : Memref sig .tc .vmem S1x64 .f32) (h5 : a5.IsWhole) (a6 : Memref sig .tc .vmem S6400x64 .f32) (h6 : a6.IsWhole) (a7 : Memref sig .tc .vmem S1x64 .f32) (h7 : a7.IsWhole) (a8 : Memref sig .tc .vmem S1x64 .f32) (h8 : a8.IsWhole) (hc : ¬cond1_0 i) (x0 : Vec F S6400x256 .f32) (x1 : Vec F S1x256 .f32) (x2 : Vec F S1x256 .f32) (x3 : Vec F S256x64 .f32) (x4 : Vec F S1x64 .f32) (xo6 : Vec F S1x64 .f32) (xo7 : Vec F S1x64 .f32) :
    out1_B_7 c i a1 h1 a2 h2 a3 h3 a4 h4 a5 h5 a6 h6 a7 h7 a8 h8 hc x0 x1 x2 x3 x4 xo6 xo7 = k1_pay1 (k1_pay4 x0 x1 x2 x3 x4) xo7 := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, h8.read_unread, View.ld_unit_zero (S := S6400x256) hz, View.ld_unit_zero (S := S1x256) hz, View.ld_unit_zero (S := S256x64) hz, View.ld_unit_zero (S := S1x64) hz]

end Pieces

/-! ## The stores' arithmetic read at an index, over the extended reals -/

section Payload

/-- A one-row vector spread over 6400 rows reads its column. -/
theorem rowSpread256 (v : FVec Ideal S1x256 .f32) (p : Fin 6400) (k : Fin 256) :
    broadcastTo S6400x256 v broadcasts_S1x256_S6400x256 (ix2 p k) = v (ix2 (0 : Fin 1) k) :=
  broadcastTo_apply v broadcasts_S1x256_S6400x256 (ix2 p k) (ix2 (0 : Fin 1) k) (fun a => by
    match a with
    | ⟨0, _⟩ => rfl
    | ⟨1, _⟩ => rfl)

theorem rowSpread64 (v : FVec Ideal S1x64 .f32) (p : Fin 6400) (q : Fin 64) :
    broadcastTo S6400x64 v broadcasts_S1x64_S6400x64 (ix2 p q) = v (ix2 (0 : Fin 1) q) :=
  broadcastTo_apply v broadcasts_S1x64_S6400x64 (ix2 p q) (ix2 (0 : Fin 1) q) (fun a => by
    match a with
    | ⟨0, _⟩ => rfl
    | ⟨1, _⟩ => rfl)

/-- The sum over the rows of a block, kept as a one-row vector: at column q, the sum of that column. -/
theorem colRed (v : FVec Ideal S6400x64 .f32) (q : Fin 64) :
    shapeCast S1x64 (multiReduction (F := Ideal) .add [0] S64 v 0x00000000#32 reduces_S6400x64_S64 (.inl rfl) rfl)
        shapeCasts_S64_S1x64 (ix2 (0 : Fin 1) q)
      = ∑ r : Fin 6400, v (ix2 r q) := by
  refine (shapeCast_addUnit_apply ![64] _ shapeCasts_S64_S1x64 (ix2 (0 : Fin 1) q)).trans ?_
  refine (Ideal.multiReduction_add_single v 0x00000000#32 reduces_S6400x64_S64 (.inl rfl) rfl _).trans ?_
  refine Finset.sum_congr rfl fun r _ => congrArg v ?_
  funext a
  apply Fin.ext
  match a with
  | ⟨0, _⟩ => rfl
  | ⟨1, _⟩ => rfl

theorem lhs_ax0 (i : S6400x64.Idx) (q : dot_S6400x256_S256x64_S6400x64_1_0_0_1_n_n.contr.Idx) :
    (dot_S6400x256_S256x64_S6400x64_1_0_0_1_n_n.lhsIdx i q 0).val = (i 0).val := by
  unfold DotDims.lhsIdx
  rw [dif_neg (show ¬(0 : Fin S6400x256.rank) ∈ dot_S6400x256_S256x64_S6400x64_1_0_0_1_n_n.lhsBatch by decide), dif_pos (show (0 : Fin S6400x256.rank) ∈ dot_S6400x256_S256x64_S6400x64_1_0_0_1_n_n.lhsNonContracting by decide)]
  rfl
theorem lhs_ax1 (i : S6400x64.Idx) (q : dot_S6400x256_S256x64_S6400x64_1_0_0_1_n_n.contr.Idx) :
    (dot_S6400x256_S256x64_S6400x64_1_0_0_1_n_n.lhsIdx i q 1).val = (q ⟨0, by decide⟩).val :=
  dot_S6400x256_S256x64_S6400x64_1_0_0_1_n_n.lhsIdx_val_of_single rfl i q
theorem rhs_ax0 (i : S6400x64.Idx) (q : dot_S6400x256_S256x64_S6400x64_1_0_0_1_n_n.contr.Idx) :
    (dot_S6400x256_S256x64_S6400x64_1_0_0_1_n_n.rhsIdx i q 0).val = (q ⟨0, by decide⟩).val :=
  dot_S6400x256_S256x64_S6400x64_1_0_0_1_n_n.rhsIdx_val_of_single rfl i q
theorem rhs_ax1 (i : S6400x64.Idx) (q : dot_S6400x256_S256x64_S6400x64_1_0_0_1_n_n.contr.Idx) :
    (dot_S6400x256_S256x64_S6400x64_1_0_0_1_n_n.rhsIdx i q 1).val = (i 1).val := by
  unfold DotDims.rhsIdx
  rw [dif_neg (show ¬(1 : Fin S256x64.rank) ∈ dot_S6400x256_S256x64_S6400x64_1_0_0_1_n_n.rhsBatch by decide), dif_pos (show (1 : Fin S256x64.rank) ∈ dot_S6400x256_S256x64_S6400x64_1_0_0_1_n_n.rhsNonContracting by decide)]
  rfl

/-- The product of a block by the weights into a zero accumulator: entry (p, q) is the sum over the 256 inner positions. -/
theorem prod_apply (l : FVec Ideal S6400x256 .bf16) (r : FVec Ideal S256x64 .bf16) (p : Fin 6400) (q : Fin 64) :
    matmul dot_S6400x256_S256x64_S6400x64_1_0_0_1_n_n none l r (constant (F := Ideal) S6400x64 .f32 0x00000000#32) (ix2 p q)
      = ∑ k : Fin 256, l (ix2 p k) * r (ix2 k q) := by
  simp only [matmul]
  rw [Ideal.matmul_constant_zero_apply, ← Equiv.sum_comp (ValueIdx.contrEquiv1 dot_S6400x256_S256x64_S6400x64_1_0_0_1_n_n 256 rfl rfl).symm]
  refine Finset.sum_congr rfl fun k _ => ?_
  have hk := ValueIdx.contrEquiv1_symm_val dot_S6400x256_S256x64_S6400x64_1_0_0_1_n_n 256 rfl rfl k
  have el : dot_S6400x256_S256x64_S6400x64_1_0_0_1_n_n.lhsIdx (ix2 p q) ((ValueIdx.contrEquiv1 dot_S6400x256_S256x64_S6400x64_1_0_0_1_n_n 256 rfl rfl).symm k) = ix2 p k := funext fun a => Fin.ext (by
    match a with
    | ⟨0, _⟩ => exact lhs_ax0 _ _
    | ⟨1, _⟩ => exact (lhs_ax1 _ _).trans hk)
  have er : dot_S6400x256_S256x64_S6400x64_1_0_0_1_n_n.rhsIdx (ix2 p q) ((ValueIdx.contrEquiv1 dot_S6400x256_S256x64_S6400x64_1_0_0_1_n_n 256 rfl rfl).symm k) = ix2 k q := funext fun a => Fin.ext (by
    match a with
    | ⟨0, _⟩ => exact (rhs_ax0 _ _).trans hk
    | ⟨1, _⟩ => exact rhs_ax1 _ _)
  rw [el, er]

/-- The layer on one block of rows: normalise with the two rows, clip at zero, multiply by the weights, add the bias. -/
def blkOut (x0 : Vec Ideal S6400x256 .f32) (x1 x2 : Vec Ideal S1x256 .f32) (x3 : Vec Ideal S256x64 .f32)
    (x4 : Vec Ideal S1x64 .f32) : Mat 6400 64 :=
  lin (normAct eps (ofArr (a := 6400) (b := 256) x0) (fun k => x1 (ix2 (0 : Fin 1) k)) (fun k => x2 (ix2 (0 : Fin 1) k)))
    (ofArr (a := 256) (b := 64) x3) (fun j => x4 (ix2 (0 : Fin 1) j))

theorem pay4_apply (x0 : Vec Ideal S6400x256 .f32) (x1 x2 : Vec Ideal S1x256 .f32) (x3 : Vec Ideal S256x64 .f32)
    (x4 : Vec Ideal S1x64 .f32) (p : Fin 6400) (q : Fin 64) :
    k1_pay4 (F := Ideal) x0 x1 x2 x3 x4 (ix2 p q) = blkOut x0 x1 x2 x3 x4 p q := by
  unfold k1_pay4
  simp only [shapeCast_self]
  refine (addf_apply _ _ (ix2 p q)).trans ?_
  rw [prod_apply, rowSpread64]
  unfold blkOut lin normAct ofArr
  refine congrArg (· + x4 (ix2 (0 : Fin 1) q)) (Finset.sum_congr rfl fun k _ => ?_)
  refine congrArg (· * x3 (ix2 k q)) ?_
  rw [truncf_apply, maximumf_apply, mulf_apply, subf_apply, rowSpread256, rowSpread256, broadcast_apply,
    Ideal.ofBits_def (φ := .f32) 0x00000000#32, Ideal.ofBits_zero_f32]
  rfl

/-- The updated row of column sums: the row it finds plus the column sums of the block's output. -/
theorem pay5_apply (x0 : Vec Ideal S6400x256 .f32) (x1 x2 : Vec Ideal S1x256 .f32) (x3 : Vec Ideal S256x64 .f32)
    (x4 : Vec Ideal S1x64 .f32) (v27 : Vec Ideal S1x64 .f32) (q : Fin 64) :
    k1_pay5 (F := Ideal) x0 x1 x2 x3 x4 v27 (ix2 (0 : Fin 1) q)
      = v27 (ix2 (0 : Fin 1) q) + ∑ r : Fin 6400, blkOut x0 x1 x2 x3 x4 r q := by
  unfold k1_pay5
  simp only [shapeCast_self]
  refine (addf_apply _ _ (ix2 (0 : Fin 1) q)).trans ?_
  refine congrArg (v27 (ix2 (0 : Fin 1) q) + ·) ((colRed _ q).trans ?_)
  exact Finset.sum_congr rfl fun r _ => pay4_apply x0 x1 x2 x3 x4 r q

/-- The updated row of column sums of squares. -/
theorem pay1_apply (v25 : FVec Ideal S6400x64 .f32) (v33 : Vec Ideal S1x64 .f32) (q : Fin 64) :
    k1_pay1 (F := Ideal) v25 v33 (ix2 (0 : Fin 1) q)
      = v33 (ix2 (0 : Fin 1) q) + ∑ r : Fin 6400, v25 (ix2 r q) * v25 (ix2 r q) := by
  unfold k1_pay1
  simp only [shapeCast_self]
  refine (addf_apply _ _ (ix2 (0 : Fin 1) q)).trans ?_
  refine congrArg (v33 (ix2 (0 : Fin 1) q) + ·) ((colRed _ q).trans ?_)
  exact Finset.sum_congr rfl fun r _ => rfl

/-- The two zero rows the first point stores. -/
theorem pay2_apply (j : S1x64.Idx) : k1_pay2 (F := Ideal) j = 0 := by
  unfold k1_pay2
  show Ideal.ofBits .f32 0x00000000#32 = 0
  exact Ideal.ofBits_zero_f32
theorem pay3_apply (j : S1x64.Idx) : k1_pay3 (F := Ideal) j = 0 := by
  unfold k1_pay3
  show Ideal.ofBits .f32 0x00000000#32 = 0
  exact Ideal.ofBits_zero_f32

end Payload

/-! ## The blocks a point reads, and its block of the output -/

section Blocks

/-- The windows' block indices, decided over the grid: the two wide windows move one block of rows per point, the
    others stay on their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The five input blocks at a point, by their literal types. -/
abbrev b0 (c : Dev nD) (t : Fin cfg1.N) : Vec Ideal S6400x256 .f32 := iblk1 V c 0 t
abbrev b1 (c : Dev nD) (t : Fin cfg1.N) : Vec Ideal S1x256 .f32 := iblk1 V c 1 t
abbrev b2 (c : Dev nD) (t : Fin cfg1.N) : Vec Ideal S1x256 .f32 := iblk1 V c 2 t
abbrev b3 (c : Dev nD) (t : Fin cfg1.N) : Vec Ideal S256x64 .f32 := iblk1 V c 3 t
abbrev b4 (c : Dev nD) (t : Fin cfg1.N) : Vec Ideal S1x64 .f32 := iblk1 V c 4 t

/-- Row p of block t of the wide input is row 6400·t + p of its array. -/
theorem b0_apply (c : Dev nD) (t : Fin cfg1.N) (p : Fin 6400) (k : Fin 256) (hp : 6400 * t.val + p.val < 800000) :
    b0 V c t (ix2 p k) = V c main_v22_0 (ix2 (⟨6400 * t.val + p.val, hp⟩ : Fin 800000) k) := by
  obtain ⟨e0, e1, -⟩ := idx_facts t
  show iblk1 V c 0 t (ix2 p k) = _
  unfold iblk1
  rw [View.read_apply]
  show V c main_v22_0 (((cfg1.win 0).blk t).view.emb (ix2 p k)) = V c main_v22_0 _
  refine congrArg (V c main_v22_0) ?_
  funext a
  apply Fin.ext
  match a with
  | ⟨0, _⟩ => show win1_0.index t (0 : Fin 2) * 6400 + 1 * p.val = 6400 * t.val + p.val; rw [e0]; omega
  | ⟨1, _⟩ => show win1_0.index t (1 : Fin 2) * 256 + 1 * k.val = k.val; rw [e1]; omega

/-- The one-block windows read their whole array at every point. -/
theorem b1_apply (c : Dev nD) (t : Fin cfg1.N) (k : Fin 256) :
    b1 V c t (ix2 (0 : Fin 1) k) = V c main_v24 (ix2 (0 : Fin 1) k) := by
  obtain ⟨-, -, e0, e1, -⟩ := idx_facts t
  show iblk1 V c 1 t (ix2 (0 : Fin 1) k) = _
  unfold iblk1
  rw [View.read_apply]
  show V c main_v24 (((cfg1.win 1).blk t).view.emb (ix2 (0 : Fin 1) k)) = V c main_v24 _
  refine congrArg (V c main_v24) ?_
  funext a
  apply Fin.ext
  match a with
  | ⟨0, _⟩ => show win1_1.index t (0 : Fin 2) * 1 + 1 * 0 = 0; rw [e0]
  | ⟨1, _⟩ => show win1_1.index t (1 : Fin 2) * 256 + 1 * k.val = k.val; rw [e1]; omega

theorem b2_apply (c : Dev nD) (t : Fin cfg1.N) (k : Fin 256) :
    b2 V c t (ix2 (0 : Fin 1) k) = V c main_v28 (ix2 (0 : Fin 1) k) := by
  obtain ⟨-, -, -, -, e0, e1, -⟩ := idx_facts t
  show iblk1 V c 2 t (ix2 (0 : Fin 1) k) = _
  unfold iblk1
  rw [View.read_apply]
  show V c main_v28 (((cfg1.win 2).blk t).view.emb (ix2 (0 : Fin 1) k)) = V c main_v28 _
  refine congrArg (V c main_v28) ?_
  funext a
  apply Fin.ext
  match a with
  | ⟨0, _⟩ => show win1_2.index t (0 : Fin 2) * 1 + 1 * 0 = 0; rw [e0]
  | ⟨1, _⟩ => show win1_2.index t (1 : Fin 2) * 256 + 1 * k.val = k.val; rw [e1]; omega

theorem b3_apply (c : Dev nD) (t : Fin cfg1.N) (k : Fin 256) (q : Fin 64) :
    b3 V c t (ix2 k q) = V c main_arg4 (ix2 k q) := by
  obtain ⟨-, -, -, -, -, -, e0, e1, -⟩ := idx_facts t
  show iblk1 V c 3 t (ix2 k q) = _
  unfold iblk1
  rw [View.read_apply]
  show V c main_arg4 (((cfg1.win 3).blk t).view.emb (ix2 k q)) = V c main_arg4 _
  refine congrArg (V c main_arg4) ?_
  funext a
  apply Fin.ext
  match a with
  | ⟨0, _⟩ => show win1_3.index t (0 : Fin 2) * 256 + 1 * k.val = k.val; rw [e0]; omega
  | ⟨1, _⟩ => show win1_3.index t (1 : Fin 2) * 64 + 1 * q.val = q.val; rw [e1]; omega

theorem b4_apply (c : Dev nD) (t : Fin cfg1.N) (q : Fin 64) :
    b4 V c t (ix2 (0 : Fin 1) q) = V c main_v20 (ix2 (0 : Fin 1) q) := by
  obtain ⟨-, -, -, -, -, -, -, -, e0, e1, -⟩ := idx_facts t
  show iblk1 V c 4 t (ix2 (0 : Fin 1) q) = _
  unfold iblk1
  rw [View.read_apply]
  show V c main_v20 (((cfg1.win 4).blk t).view.emb (ix2 (0 : Fin 1) q)) = V c main_v20 _
  refine congrArg (V c main_v20) ?_
  funext a
  apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-- So the layer on block t is rows 6400·t … 6400·t + 6399 of the layer on the whole array. -/
theorem blk_eq (c : Dev nD) (t : Fin cfg1.N) (p : Fin 6400) (q : Fin 64) (hp : 6400 * t.val + p.val < 800000) :
    blkOut (b0 V c t) (b1 V c t) (b2 V c t) (b3 V c t) (b4 V c t) p q = out V c ⟨6400 * t.val + p.val, hp⟩ q := by
  unfold blkOut out lin normAct ofArr
  dsimp only
  rw [b4_apply]
  refine congrArg (· + V c main_v20 (ix2 (0 : Fin 1) q)) (Finset.sum_congr rfl fun k _ => ?_)
  rw [b0_apply V c t p k hp, b1_apply, b2_apply, b3_apply]

end Blocks

/-! ## What the three outputs hold after a point -/

section Points

/-- The wide output's buffer after point t: the layer on block t, whichever case the point is in. -/
theorem out5_at (c : Dev nD) (t : Fin cfg1.N) :
    (outsAt1 V c t.val t.isLt).1 = k1_pay4 (F := Ideal) (b0 V c t) (b1 V c t) (b2 V c t) (b3 V c t) (b4 V c t) := by
  by_cases h0 : t.val % 125 = 0
  · rw [outsAt1_A V c t h0]
    dsimp only
    exact pieceA5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)
  · rw [outsAt1_B V c t h0]
    dsimp only
    exact pieceB5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2

/-- The row of column sums after the first point: the block's column sums. -/
theorem out6_first (c : Dev nD) (t : Fin cfg1.N) (h0 : t.val % 125 = 0) (q : Fin 64) :
    (outsAt1 V c t.val t.isLt).2.1 (ix2 (0 : Fin 1) q) = ∑ r : Fin 6400, blkOut (b0 V c t) (b1 V c t) (b2 V c t) (b3 V c t) (b4 V c t) r q := by
  rw [outsAt1_A V c t h0]
  dsimp only
  refine (congrFun (pieceA6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)) (ix2 (0 : Fin 1) q)).trans ?_
  refine (pay5_apply (b0 V c t) (b1 V c t) (b2 V c t) (b3 V c t) (b4 V c t) (k1_pay2 (F := Ideal)) q).trans ?_
  rw [pay2_apply, zero_add]

/-- After a later point: what the point before left, plus the block's column sums. -/
theorem out6_next (c : Dev nD) (t : Fin cfg1.N) (h0 : ¬t.val % 125 = 0) (q : Fin 64) :
    (outsAt1 V c t.val t.isLt).2.1 (ix2 (0 : Fin 1) q)
      = (outsAt1 V c (t.val - 1) (Nat.lt_of_le_of_lt (Nat.sub_le _ _) t.isLt)).2.1 (ix2 (0 : Fin 1) q) + ∑ r : Fin 6400, blkOut (b0 V c t) (b1 V c t) (b2 V c t) (b3 V c t) (b4 V c t) r q := by
  rw [outsAt1_B V c t h0]
  dsimp only
  refine (congrFun (pieceB6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
  exact pay5_apply (b0 V c t) (b1 V c t) (b2 V c t) (b3 V c t) (b4 V c t) (outsAt1 V c (t.val - 1) (Nat.lt_of_le_of_lt (Nat.sub_le _ _) t.isLt)).2.1 q

/-- The row of column sums of squares, likewise. -/
theorem out7_first (c : Dev nD) (t : Fin cfg1.N) (h0 : t.val % 125 = 0) (q : Fin 64) :
    (outsAt1 V c t.val t.isLt).2.2 (ix2 (0 : Fin 1) q)
      = ∑ r : Fin 6400, blkOut (b0 V c t) (b1 V c t) (b2 V c t) (b3 V c t) (b4 V c t) r q * blkOut (b0 V c t) (b1 V c t) (b2 V c t) (b3 V c t) (b4 V c t) r q := by
  rw [outsAt1_A V c t h0]
  dsimp only
  refine (congrFun (pieceA7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)) (ix2 (0 : Fin 1) q)).trans ?_
  refine (pay1_apply (k1_pay4 (F := Ideal) (b0 V c t) (b1 V c t) (b2 V c t) (b3 V c t) (b4 V c t)) (k1_pay3 (F := Ideal)) q).trans ?_
  rw [pay3_apply, zero_add]
  exact Finset.sum_congr rfl fun r _ => by rw [pay4_apply]

theorem out7_next (c : Dev nD) (t : Fin cfg1.N) (h0 : ¬t.val % 125 = 0) (q : Fin 64) :
    (outsAt1 V c t.val t.isLt).2.2 (ix2 (0 : Fin 1) q)
      = (outsAt1 V c (t.val - 1) (Nat.lt_of_le_of_lt (Nat.sub_le _ _) t.isLt)).2.2 (ix2 (0 : Fin 1) q) + ∑ r : Fin 6400, blkOut (b0 V c t) (b1 V c t) (b2 V c t) (b3 V c t) (b4 V c t) r q * blkOut (b0 V c t) (b1 V c t) (b2 V c t) (b3 V c t) (b4 V c t) r q := by
  rw [outsAt1_B V c t h0]
  dsimp only
  refine (congrFun (pieceB7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
  refine (pay1_apply (k1_pay4 (F := Ideal) (b0 V c t) (b1 V c t) (b2 V c t) (b3 V c t) (b4 V c t)) (outsAt1 V c (t.val - 1) (Nat.lt_of_le_of_lt (Nat.sub_le _ _) t.isLt)).2.2 q).trans ?_
  exact congrArg ((outsAt1 V c (t.val - 1) (Nat.lt_of_le_of_lt (Nat.sub_le _ _) t.isLt)).2.2 (ix2 (0 : Fin 1) q) + ·) (Finset.sum_congr rfl fun r _ => by rw [pay4_apply])

end Points

/-! ## The two running sums, point by point -/

section Sums

/-- Column q of the layer's output and of its square, by row number (zero past the last row). -/
def colN (c : Dev nD) (q : Fin 64) (e : ℕ) : EReal := if h : e < 800000 then out V c ⟨e, h⟩ q else 0
def colSqN (c : Dev nD) (q : Fin 64) (e : ℕ) : EReal :=
  if h : e < 800000 then out V c ⟨e, h⟩ q * out V c ⟨e, h⟩ q else 0

theorem blkSum_eq (c : Dev nD) (t : Fin cfg1.N) (q : Fin 64) :
    (∑ r : Fin 6400, blkOut (b0 V c t) (b1 V c t) (b2 V c t) (b3 V c t) (b4 V c t) r q) = ∑ r : Fin 6400, colN V c q (6400 * t.val + r.val) := by
  have hN : t.val < 125 := lt_of_lt_of_eq t.isLt (show cfg1.N = 125 from N_1)
  refine Finset.sum_congr rfl fun r _ => ?_
  have hp : 6400 * t.val + r.val < 800000 := by have := r.isLt; omega
  rw [blk_eq V c t r q hp]
  unfold colN
  rw [dif_pos hp]

theorem blkSumSq_eq (c : Dev nD) (t : Fin cfg1.N) (q : Fin 64) :
    (∑ r : Fin 6400, blkOut (b0 V c t) (b1 V c t) (b2 V c t) (b3 V c t) (b4 V c t) r q * blkOut (b0 V c t) (b1 V c t) (b2 V c t) (b3 V c t) (b4 V c t) r q)
      = ∑ r : Fin 6400, colSqN V c q (6400 * t.val + r.val) := by
  have hN : t.val < 125 := lt_of_lt_of_eq t.isLt (show cfg1.N = 125 from N_1)
  refine Finset.sum_congr rfl fun r _ => ?_
  have hp : 6400 * t.val + r.val < 800000 := by have := r.isLt; omega
  rw [blk_eq V c t r q hp]
  unfold colSqN
  rw [dif_pos hp]

/-- After point n the two rows hold the sums over the rows of blocks 0 … n: by induction on the point. -/
theorem acc_at (c : Dev nD) : ∀ (n : ℕ) (h : n < cfg1.N) (q : Fin 64),
    (outsAt1 V c n h).2.1 (ix2 (0 : Fin 1) q)
        = ∑ s ∈ Finset.range (n + 1), ∑ r : Fin 6400, colN V c q (6400 * s + r.val)
    ∧ (outsAt1 V c n h).2.2 (ix2 (0 : Fin 1) q)
        = ∑ s ∈ Finset.range (n + 1), ∑ r : Fin 6400, colSqN V c q (6400 * s + r.val)
  | 0, h, q => by
    have e6 := out6_first V c ⟨0, h⟩ (Nat.zero_mod _) q
    have e7 := out7_first V c ⟨0, h⟩ (Nat.zero_mod _) q
    rw [Finset.sum_range_one, Finset.sum_range_one]
    exact ⟨e6.trans (blkSum_eq V c ⟨0, h⟩ q), e7.trans (blkSumSq_eq V c ⟨0, h⟩ q)⟩
  | n + 1, h, q => by
    have hN : cfg1.N = 125 := N_1
    have hB : ¬(⟨n + 1, h⟩ : Fin cfg1.N).val % 125 = 0 := by dsimp only; omega
    have e6 := out6_next V c ⟨n + 1, h⟩ hB q
    have e7 := out7_next V c ⟨n + 1, h⟩ hB q
    obtain ⟨i6, i7⟩ := acc_at c n (Nat.lt_of_succ_lt h) q
    rw [blkSum_eq V c ⟨n + 1, h⟩ q] at e6
    rw [blkSumSq_eq V c ⟨n + 1, h⟩ q] at e7
    rw [Finset.sum_range_succ _ (n + 1), Finset.sum_range_succ _ (n + 1)]
    exact ⟨e6.trans (congrArg (· + _) i6), e7.trans (congrArg (· + _) i7)⟩

/-- The sums over all 125 blocks are the sums over all 800000 rows. -/
theorem colN_total (c : Dev nD) (q : Fin 64) :
    (∑ s ∈ Finset.range 125, ∑ r : Fin 6400, colN V c q (6400 * s + r.val)) = colSum (out V c) q := by
  rw [sum_blocks 125 6400 (colN V c q)]
  unfold colSum
  show (∑ e : Fin 800000, colN V c q e.val) = _
  refine Finset.sum_congr rfl fun e _ => ?_
  unfold colN
  rw [dif_pos e.isLt]

theorem colSqN_total (c : Dev nD) (q : Fin 64) :
    (∑ s ∈ Finset.range 125, ∑ r : Fin 6400, colSqN V c q (6400 * s + r.val)) = colSumSq (out V c) q := by
  rw [sum_blocks 125 6400 (colSqN V c q)]
  unfold colSumSq
  show (∑ e : Fin 800000, colSqN V c q e.val) = _
  refine Finset.sum_congr rfl fun e _ => ?_
  unfold colSqN
  rw [dif_pos e.isLt]

end Sums

/-! ## The three result arrays -/

/-- What point t writes back of the wide output is block t of the layer's output. -/
theorem flushed5_eq (c : Dev nD) (t : Fin cfg1.N) :
    (dat1 V c).flushed 5 t
      = ((cfg1.win 5).blk t).view.read (Elt Ideal) (fun (i : S800000x64.Idx) => out V c (i 0) (i 1)) := by
  have hN : t.val < 125 := lt_of_lt_of_eq t.isLt (show cfg1.N = 125 from N_1)
  obtain ⟨-, -, -, -, -, -, -, -, -, -, e0, e1, -⟩ := idx_facts t
  show (cfg1.win 5).cut (grid1.coords t) ((dat1 V c).after 5 t) = _
  rw [after1_5, out5_at]
  funext (j : S6400x64.Idx)
  obtain ⟨p, q, rfl⟩ : ∃ (p : Fin 6400) (q : Fin 64), j = ix2 p q := ⟨j 0, j 1, eq_ix2 j⟩
  have hp : 6400 * t.val + p.val < 800000 := by have := p.isLt; omega
  show k1_pay4 (F := Ideal) (b0 V c t) (b1 V c t) (b2 V c t) (b3 V c t) (b4 V c t) (ix2 p q)
    = out V c ((((cfg1.win 5).blk t).view.emb (ix2 p q)) 0) ((((cfg1.win 5).blk t).view.emb (ix2 p q)) 1)
  rw [pay4_apply, blk_eq V c t p q hp]
  have ha : (⟨6400 * t.val + p.val, hp⟩ : Fin 800000) = (((cfg1.win 5).blk t).view.emb (ix2 p q)) 0 := Fin.ext (by
    show 6400 * t.val + p.val = win1_5.index t (0 : Fin 2) * 6400 + 1 * p.val
    rw [e0]; omega)
  have hq : q = (((cfg1.win 5).blk t).view.emb (ix2 p q)) 1 := Fin.ext (by
    show q.val = win1_5.index t (1 : Fin 2) * 64 + 1 * q.val
    rw [e1]; omega)
  exact congrArg₂ (out V c) ha hq

/-- What the two one-row arrays end holding. -/
abbrev G6 (c : Dev nD) : Buf (Elt Ideal) ((c : Thread nD τ).loc main_v29_1) :=
  fun (i : S1x64.Idx) => colSum (out V c) (i 1)
abbrev G7 (c : Dev nD) : Buf (Elt Ideal) ((c : Thread nD τ).loc main_v29_2) :=
  fun (i : S1x64.Idx) => colSumSq (out V c) (i 1)

/-- The one write-back of this row, after the last point, writes the sums over all rows: its block is the whole
    one-row array. -/
theorem flushed6_eq (c : Dev nD) (t : Fin cfg1.N) (hf : (cfg1.win 6).flush t = true) :
    (dat1 V c).flushed 6 t = ((cfg1.win 6).blk t).view.read (Elt Ideal) (G6 V c) := by
  have hN : cfg1.N = 125 := N_1
  have h124 : t.val = 124 := by have := (flush1_6 t).mp hf; have := t.isLt; omega
  obtain ⟨-, -, -, -, -, -, -, -, -, -, -, -, e0, e1, -⟩ := idx_facts t
  show (cfg1.win 6).cut (grid1.coords t) ((dat1 V c).after 6 t) = _
  rw [after1_6]
  have hz' : (fun a => win1_6.index t a * main_v29_1.ty.shape.size a) = fun _ => 0 := funext fun a => by
    match a with
    | ⟨0, _⟩ => show win1_6.index t (0 : Fin 2) * 1 = 0; rw [e0]
    | ⟨1, _⟩ => show win1_6.index t (1 : Fin 2) * 64 = 0; rw [e1]
  refine Eq.trans ?_ (Memref.read_access_unit_zero (Elt Ideal) main_v29_1 hz' (fun a => by rw [congrFun hz' a]; simp) (G6 V c)).symm
  funext i
  obtain ⟨u, j, rfl⟩ : ∃ (u : Fin 1) (j : Fin 64), i = ix2 u j := ⟨i 0, i 1, eq_ix2 i⟩
  obtain rfl : u = 0 := Subsingleton.elim _ _
  show (outsAt1 V c t.val t.isLt).2.1 (ix2 (0 : Fin 1) j) = colSum (out V c) j
  have key : ∀ (n : ℕ) (hn : n < cfg1.N), n = 124 →
      (outsAt1 V c n hn).2.1 (ix2 (0 : Fin 1) j) = colSum (out V c) j := by
    intro n hn e
    subst e
    rw [(acc_at V c 124 hn j).1]
    exact colN_total V c j
  exact key t.val t.isLt h124

/-- Every index of the one-row array is in the last point's block. -/
theorem cover6 (i : S1x64.Idx) :
    ∃ t : Fin cfg1.N, (cfg1.win 6).flush t = true ∧ i ∈ ((cfg1.win 6).blk t).view.set := by
  have hi0 : (i 0).val < 1 := (i 0).isLt
  have hi1 : (i 1).val < 64 := (i 1).isLt
  have hN : cfg1.N = 125 := N_1
  have ht : 124 < cfg1.N := by rw [hN]; omega
  obtain ⟨-, -, -, -, -, -, -, -, -, -, -, -, e0, e1, -⟩ := idx_facts ⟨124, ht⟩
  refine ⟨⟨124, ht⟩, (flush1_6 _).mpr rfl, ?_⟩
  show i ∈ ((View.whole main_v29_1).slice (win1_6.rect ⟨124, ht⟩)).set
  rw [View.set_slice_whole, Rect.mem_set_unit]
  intro a
  match a with
  | ⟨0, _⟩ =>
    show win1_6.index ⟨124, ht⟩ (0 : Fin 2) * 1 ≤ (i 0).val
      ∧ (i 0).val < win1_6.index ⟨124, ht⟩ (0 : Fin 2) * 1 + 1
    rw [e0]; omega
  | ⟨1, _⟩ =>
    show win1_6.index ⟨124, ht⟩ (1 : Fin 2) * 64 ≤ (i 1).val
      ∧ (i 1).val < win1_6.index ⟨124, ht⟩ (1 : Fin 2) * 64 + 64
    rw [e1]; omega

/-- The one write-back of this row, after the last point, writes the sums over all rows: its block is the whole
    one-row array. -/
theorem flushed7_eq (c : Dev nD) (t : Fin cfg1.N) (hf : (cfg1.win 7).flush t = true) :
    (dat1 V c).flushed 7 t = ((cfg1.win 7).blk t).view.read (Elt Ideal) (G7 V c) := by
  have hN : cfg1.N = 125 := N_1
  have h124 : t.val = 124 := by have := (flush1_7 t).mp hf; have := t.isLt; omega
  obtain ⟨-, -, -, -, -, -, -, -, -, -, -, -, -, -, e0, e1⟩ := idx_facts t
  show (cfg1.win 7).cut (grid1.coords t) ((dat1 V c).after 7 t) = _
  rw [after1_7]
  have hz' : (fun a => win1_7.index t a * main_v29_2.ty.shape.size a) = fun _ => 0 := funext fun a => by
    match a with
    | ⟨0, _⟩ => show win1_7.index t (0 : Fin 2) * 1 = 0; rw [e0]
    | ⟨1, _⟩ => show win1_7.index t (1 : Fin 2) * 64 = 0; rw [e1]
  refine Eq.trans ?_ (Memref.read_access_unit_zero (Elt Ideal) main_v29_2 hz' (fun a => by rw [congrFun hz' a]; simp) (G7 V c)).symm
  funext i
  obtain ⟨u, j, rfl⟩ : ∃ (u : Fin 1) (j : Fin 64), i = ix2 u j := ⟨i 0, i 1, eq_ix2 i⟩
  obtain rfl : u = 0 := Subsingleton.elim _ _
  show (outsAt1 V c t.val t.isLt).2.2 (ix2 (0 : Fin 1) j) = colSumSq (out V c) j
  have key : ∀ (n : ℕ) (hn : n < cfg1.N), n = 124 →
      (outsAt1 V c n hn).2.2 (ix2 (0 : Fin 1) j) = colSumSq (out V c) j := by
    intro n hn e
    subst e
    rw [(acc_at V c 124 hn j).2]
    exact colSqN_total V c j
  exact key t.val t.isLt h124

/-- Every index of the one-row array is in the last point's block. -/
theorem cover7 (i : S1x64.Idx) :
    ∃ t : Fin cfg1.N, (cfg1.win 7).flush t = true ∧ i ∈ ((cfg1.win 7).blk t).view.set := by
  have hi0 : (i 0).val < 1 := (i 0).isLt
  have hi1 : (i 1).val < 64 := (i 1).isLt
  have hN : cfg1.N = 125 := N_1
  have ht : 124 < cfg1.N := by rw [hN]; omega
  obtain ⟨-, -, -, -, -, -, -, -, -, -, -, -, -, -, e0, e1⟩ := idx_facts ⟨124, ht⟩
  refine ⟨⟨124, ht⟩, (flush1_7 _).mpr rfl, ?_⟩
  show i ∈ ((View.whole main_v29_2).slice (win1_7.rect ⟨124, ht⟩)).set
  rw [View.set_slice_whole, Rect.mem_set_unit]
  intro a
  match a with
  | ⟨0, _⟩ =>
    show win1_7.index ⟨124, ht⟩ (0 : Fin 2) * 1 ≤ (i 0).val
      ∧ (i 0).val < win1_7.index ⟨124, ht⟩ (0 : Fin 2) * 1 + 1
    rw [e0]; omega
  | ⟨1, _⟩ =>
    show win1_7.index ⟨124, ht⟩ (1 : Fin 2) * 64 ≤ (i 1).val
      ∧ (i 1).val < win1_7.index ⟨124, ht⟩ (1 : Fin 2) * 64 + 64
    rw [e1]; omega

theorem h_final (c : Dev nD) : (dat1 V c).arrAt 5 cfg1.N = fun (i : S800000x64.Idx) => out V c (i 0) (i 1) := by
  refine (dat1 V c).arrAt_eq_of_cover 5 (fun (i : S800000x64.Idx) => out V c (i 0) (i 1)) (fun t _ => flushed5_eq V c t) fun i => ?_
  have hi0 : (i 0).val < 800000 := (i 0).isLt
  have hi1 : (i 1).val < 64 := (i 1).isLt
  have hN : cfg1.N = 125 := N_1
  have ht : (i 0).val / 6400 < cfg1.N := by rw [hN]; omega
  obtain ⟨-, -, -, -, -, -, -, -, -, -, e0, e1, -⟩ := idx_facts ⟨(i 0).val / 6400, ht⟩
  refine ⟨⟨(i 0).val / 6400, ht⟩, flush1_5 _, ?_⟩
  show i ∈ ((View.whole main_v29_0).slice (win1_5.rect ⟨(i 0).val / 6400, ht⟩)).set
  rw [View.set_slice_whole, Rect.mem_set_unit]
  intro a
  match a with
  | ⟨0, _⟩ =>
    show win1_5.index ⟨(i 0).val / 6400, ht⟩ (0 : Fin 2) * 6400 ≤ (i 0).val
      ∧ (i 0).val < win1_5.index ⟨(i 0).val / 6400, ht⟩ (0 : Fin 2) * 6400 + 6400
    rw [e0]; dsimp only; omega
  | ⟨1, _⟩ =>
    show win1_5.index ⟨(i 0).val / 6400, ht⟩ (1 : Fin 2) * 64 ≤ (i 1).val
      ∧ (i 1).val < win1_5.index ⟨(i 0).val / 6400, ht⟩ (1 : Fin 2) * 64 + 64
    rw [e1]; omega

theorem sum_final (c : Dev nD) : (dat1 V c).arrAt 6 cfg1.N = fun (i : S1x64.Idx) => colSum (out V c) (i 1) := by
  exact (dat1 V c).arrAt_eq_of_cover 6 (G6 V c) (flushed6_eq V c) (fun i => cover6 i)

theorem sumsq_final (c : Dev nD) : (dat1 V c).arrAt 7 cfg1.N = fun (i : S1x64.Idx) => colSumSq (out V c) (i 1) := by
  exact (dat1 V c).arrAt_eq_of_cover 7 (G7 V c) (flushed7_eq V c) (fun i => cover7 i)

end Cert.KernelIdeal.Layer2

end
-- ==== Proof.Layer3.lean ====
/-
  The third region: the same 125 blocks of rows, no accumulator. A point normalises its block of the second layer's
  output with the mean and variance rows it is given, clips at zero, multiplies by the one-column weights and adds the
  bias.
-/
import proofs.«150829_j41841571397745_1_alg».proof.Proof.Gen.KernelIdeal.Frame
import proofs.«150829_j41841571397745_1_alg».proof.Proof.Spec
import proofs.«150829_j41841571397745_1_alg».proof.Proof.Laws
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Layer3

open Cert.KernelIdeal Cert.KernelIdeal.Gen Cert.NormMlp
open Idealize.ShloMosaic Idealize.ShloMosaic.TcCoe Idealize.ShloMosaic.ValueIdx Idealize.SL.Sem
open Idealize.ShloMosaic.Pipeline (Dat)

theorem zero_off : (![0, 0] : Fin 2 → Nat) = fun _ => 0 := funext fun a => by fin_cases a <;> rfl

theorem lhs_axis0 (i : S6400x1.Idx) (q : dot_S6400x64_S64x1_S6400x1_1_0_0_1_n_n.contr.Idx) :
    (dot_S6400x64_S64x1_S6400x1_1_0_0_1_n_n.lhsIdx i q 0).val = (i 0).val := by
  unfold DotDims.lhsIdx
  rw [dif_neg (show ¬(0 : Fin S6400x64.rank) ∈ dot_S6400x64_S64x1_S6400x1_1_0_0_1_n_n.lhsBatch by decide), dif_pos (show (0 : Fin S6400x64.rank) ∈ dot_S6400x64_S64x1_S6400x1_1_0_0_1_n_n.lhsNonContracting by decide)]
  rfl
theorem lhs_axis1 (i : S6400x1.Idx) (q : dot_S6400x64_S64x1_S6400x1_1_0_0_1_n_n.contr.Idx) :
    (dot_S6400x64_S64x1_S6400x1_1_0_0_1_n_n.lhsIdx i q 1).val = (q ⟨0, by decide⟩).val :=
  dot_S6400x64_S64x1_S6400x1_1_0_0_1_n_n.lhsIdx_val_of_single rfl i q
theorem rhs_axis0 (i : S6400x1.Idx) (q : dot_S6400x64_S64x1_S6400x1_1_0_0_1_n_n.contr.Idx) :
    (dot_S6400x64_S64x1_S6400x1_1_0_0_1_n_n.rhsIdx i q 0).val = (q ⟨0, by decide⟩).val :=
  dot_S6400x64_S64x1_S6400x1_1_0_0_1_n_n.rhsIdx_val_of_single rfl i q
theorem rhs_axis1 (i : S6400x1.Idx) (q : dot_S6400x64_S64x1_S6400x1_1_0_0_1_n_n.contr.Idx) :
    (dot_S6400x64_S64x1_S6400x1_1_0_0_1_n_n.rhsIdx i q 1).val = (i 1).val := by
  unfold DotDims.rhsIdx
  rw [dif_neg (show ¬(1 : Fin S64x1.rank) ∈ dot_S6400x64_S64x1_S6400x1_1_0_0_1_n_n.rhsBatch by decide), dif_pos (show (1 : Fin S64x1.rank) ∈ dot_S6400x64_S64x1_S6400x1_1_0_0_1_n_n.rhsNonContracting by decide)]
  rfl

/-- The block product at an index: the sum over the 64 columns. -/
theorem matmul_apply_ix (a : FVec Ideal S6400x64 .bf16) (w : FVec Ideal S64x1 .bf16) (p : Fin 6400) (q : Fin 1) :
    matmul dot_S6400x64_S64x1_S6400x1_1_0_0_1_n_n none a w (constant (F := Ideal) S6400x1 .f32 0x00000000#32) (ix2 p q)
      = ∑ k : Fin 64, a (ix2 p k) * w (ix2 k q) := by
  show FloatOps.matmul dot_S6400x64_S64x1_S6400x1_1_0_0_1_n_n none a w (constant (F := Ideal) S6400x1 .f32 0x00000000#32) (ix2 p q) = _
  rw [Ideal.matmul_constant_zero_apply, ← Equiv.sum_comp (ValueIdx.contrEquiv1 dot_S6400x64_S64x1_S6400x1_1_0_0_1_n_n 64 rfl rfl).symm]
  refine Finset.sum_congr rfl fun k _ => ?_
  have hk := ValueIdx.contrEquiv1_symm_val dot_S6400x64_S64x1_S6400x1_1_0_0_1_n_n 64 rfl rfl k
  have el : dot_S6400x64_S64x1_S6400x1_1_0_0_1_n_n.lhsIdx (ix2 p q) ((ValueIdx.contrEquiv1 dot_S6400x64_S64x1_S6400x1_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S6400x64_S64x1_S6400x1_1_0_0_1_n_n.rhsIdx (ix2 p q) ((ValueIdx.contrEquiv1 dot_S6400x64_S64x1_S6400x1_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- A row [1,64] spread over 6400 rows reads the row's entry of the column. -/
theorem row_bcast_apply (x : FVec Ideal S1x64 .f32) (p : Fin 6400) (k : Fin 64) :
    broadcastTo S6400x64 x broadcasts_S1x64_S6400x64 (ix2 p k) = x (ix2 0 k) := by
  refine broadcastTo_apply x _ _ _ fun a => ?_
  match a with
  | ⟨0, _⟩ => rfl
  | ⟨1, _⟩ => rfl

/-- The one bias entry spread over the 6400 rows. -/
theorem bias_bcast_apply (x : FVec Ideal S1x1 .f32) (p : Fin 6400) (q : Fin 1) :
    broadcastTo S6400x1 x broadcasts_S1x1_S6400x1 (ix2 p q) = x (ix2 0 q) := by
  refine broadcastTo_apply x _ _ _ fun a => ?_
  match a with
  | ⟨0, _⟩ => rfl
  | ⟨1, _⟩ =>
    show q.val = 0
    have := q.isLt; omega

/-- The block the body leaves, at a row and the one column. -/
theorem pay_apply (x0 : Vec Ideal S6400x64 .f32) (x1 : Vec Ideal S1x64 .f32) (x2 : Vec Ideal S1x64 .f32) (x3 : Vec Ideal S64x1 .f32) (x4 : Vec Ideal S1x1 .f32) (p : Fin 6400) (q : Fin 1) :
    out2_5 x0 x1 x2 x3 x4 (ix2 p q) = (∑ k : Fin 64, max ((x0 (ix2 p k) - x1 (ix2 0 k)) * Ideal.rsqrt (x2 (ix2 0 k) + eps)) 0 * x3 (ix2 k q)) + x4 (ix2 0 q) := by
  unfold out2_5
  rw [View.canon_unit_zero zero_off]
  simp only [View.ld_unit_zero (S := S6400x64) zero_off, View.ld_unit_zero (S := S1x64) zero_off, View.ld_unit_zero (S := S64x1) zero_off, View.ld_unit_zero (S := S1x1) zero_off]
  unfold k2_pay1
  simp only [shapeCast_self]
  rw [addf_apply, matmul_apply_ix, bias_bcast_apply]
  congr 1
  refine Finset.sum_congr rfl fun k _ => ?_
  rw [truncf_apply, truncf_apply, maximumf_apply, mulf_apply, subf_apply, row_bcast_apply, row_bcast_apply, broadcast_apply]
  show max ((x0 (ix2 p k) - x1 (ix2 0 k)) * Ideal.rsqrt (x2 (ix2 0 k) + Ideal.ofBits .f32 0x3727C5AC#32)) (Ideal.ofBits .f32 0x00000000#32) * x3 (ix2 k q) = _
  rw [Ideal.ofBits_zero_f32]
  unfold Cert.NormMlp.eps
  rfl

-- the buffer contents the region is entered with: a parameter
variable (V : (c : Dev nD) → (b : Ref sig .tc) → Buf (Elt Ideal) ((c : Thread nD τ).loc b))

/-- The third layer's output, from the region's five input arrays. -/
def out (c : Dev nD) : Mat 800000 1 :=
  lin (normAct eps (ofArr (a := 800000) (b := 64) (V c main_v29_0)) (fun k => V c main_v31 (ix2 (0 : Fin 1) k))
        (fun k => V c main_v35 (ix2 (0 : Fin 1) k)))
    (ofArr (a := 64) (b := 1) (V c main_arg6)) (fun j => V c main_v21 (ix2 (0 : Fin 1) j))

/-- The block indices over the grid: the activations' and the output's block row is the point's number, every other
    block index is 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row below 125 is some point's number. -/
theorem point_onto : ∀ r : Fin 125, ∃ t : Fin cfg2.N, t.val = r.val :=
  (by decide +kernel : ∀ r : Fin 125, ∃ t : Fin grid2.N, t.val = r.val)

/-- Row `p` of point `t`'s block of the activations is row `6400 t + p` of the array. -/
theorem act_blk_apply (c : Dev nD) (t : Fin cfg2.N) (p : Fin 6400) (k : Fin 64) (e : Fin 800000) (he : e.val = 6400 * t.val + p.val) :
    (iblk2 V c 0 t : Vec Ideal S6400x64 .f32) (ix2 p k) = (V c main_v29_0 : S800000x64.Idx → EReal) (ix2 e k) := by
  obtain ⟨h0, h1, -⟩ := idx_facts t
  unfold iblk2
  rw [View.read_apply]
  show V c main_v29_0 _ = V c main_v29_0 _
  congr 1
  funext a
  apply Fin.ext
  match a with
  | ⟨0, _⟩ => show win2_0.index t 0 * 6400 + 1 * p.val = e.val; rw [h0, he]; omega
  | ⟨1, _⟩ => show win2_0.index t 1 * 64 + 1 * k.val = k.val; rw [h1]; omega

/-- The mean row's block is the row. -/
theorem mean_blk_apply (c : Dev nD) (t : Fin cfg2.N) (k : Fin 64) :
    (iblk2 V c 1 t : Vec Ideal S1x64 .f32) (ix2 0 k) = (V c main_v31 : S1x64.Idx → EReal) (ix2 0 k) := by
  obtain ⟨-, -, h0, h1, -⟩ := idx_facts t
  unfold iblk2
  rw [View.read_apply]
  show V c main_v31 _ = V c main_v31 _
  congr 1
  funext a
  apply Fin.ext
  match a with
  | ⟨0, _⟩ => show win2_1.index t 0 * 1 + 1 * 0 = 0; rw [h0]
  | ⟨1, _⟩ => show win2_1.index t 1 * 64 + 1 * k.val = k.val; rw [h1]; omega

/-- The variance row's block is the row. -/
theorem var_blk_apply (c : Dev nD) (t : Fin cfg2.N) (k : Fin 64) :
    (iblk2 V c 2 t : Vec Ideal S1x64 .f32) (ix2 0 k) = (V c main_v35 : S1x64.Idx → EReal) (ix2 0 k) := by
  obtain ⟨-, -, -, -, h0, h1, -⟩ := idx_facts t
  unfold iblk2
  rw [View.read_apply]
  show V c main_v35 _ = V c main_v35 _
  congr 1
  funext a
  apply Fin.ext
  match a with
  | ⟨0, _⟩ => show win2_2.index t 0 * 1 + 1 * 0 = 0; rw [h0]
  | ⟨1, _⟩ => show win2_2.index t 1 * 64 + 1 * k.val = k.val; rw [h1]; omega

/-- The weights' block is the column of weights. -/
theorem wgt_blk_apply (c : Dev nD) (t : Fin cfg2.N) (k : Fin 64) (q : Fin 1) :
    (iblk2 V c 3 t : Vec Ideal S64x1 .f32) (ix2 k q) = (V c main_arg6 : S64x1.Idx → EReal) (ix2 k q) := by
  obtain ⟨-, -, -, -, -, -, h0, h1, -⟩ := idx_facts t
  unfold iblk2
  rw [View.read_apply]
  show V c main_arg6 _ = V c main_arg6 _
  congr 1
  funext a
  apply Fin.ext
  match a with
  | ⟨0, _⟩ => show win2_3.index t 0 * 64 + 1 * k.val = k.val; rw [h0]; omega
  | ⟨1, _⟩ => show win2_3.index t 1 * 1 + 1 * q.val = q.val; rw [h1]; omega

/-- The bias's block is the bias. -/
theorem bias_blk_apply (c : Dev nD) (t : Fin cfg2.N) (q : Fin 1) :
    (iblk2 V c 4 t : Vec Ideal S1x1 .f32) (ix2 0 q) = (V c main_v21 : S1x1.Idx → EReal) (ix2 0 q) := by
  obtain ⟨-, -, -, -, -, -, -, -, h0, h1, -⟩ := idx_facts t
  unfold iblk2
  rw [View.read_apply]
  show V c main_v21 _ = V c main_v21 _
  congr 1
  funext a
  apply Fin.ext
  match a with
  | ⟨0, _⟩ => show win2_4.index t 0 * 1 + 1 * 0 = 0; rw [h0]
  | ⟨1, _⟩ => show win2_4.index t 1 * 1 + 1 * q.val = q.val; rw [h1]; omega

/-- The body's block at a row from entries of the five blocks that are entries of a matrix, two rows, a column of weights and a bias:
    the layer of those at the matrix's row. -/
theorem pay_eq_lin (x0 : Vec Ideal S6400x64 .f32) (x1 : Vec Ideal S1x64 .f32) (x2 : Vec Ideal S1x64 .f32) (x3 : Vec Ideal S64x1 .f32) (x4 : Vec Ideal S1x1 .f32)
    (X : Mat 800000 64) (μ v : Fin 64 → EReal) (W : Mat 64 1) (b : Fin 1 → EReal) (p : Fin 6400) (q : Fin 1) (e : Fin 800000)
    (h0 : ∀ k : Fin 64, x0 (ix2 p k) = X e k) (h1 : ∀ k : Fin 64, x1 (ix2 0 k) = μ k) (h2 : ∀ k : Fin 64, x2 (ix2 0 k) = v k)
    (h3 : ∀ k : Fin 64, x3 (ix2 k q) = W k q) (h4 : x4 (ix2 0 q) = b q) :
    out2_5 x0 x1 x2 x3 x4 (ix2 p q) = lin (normAct eps X μ v) W b e q := by
  rw [pay_apply]
  unfold lin normAct
  simp only [h0, h1, h2, h3, h4]

/-- What point `t`'s body leaves at row `p` is the layer's output at row `6400 t + p`. -/
theorem blk_value (c : Dev nD) (t : Fin cfg2.N) (p : Fin 6400) (q : Fin 1) (e : Fin 800000) (q' : Fin 1) (he : e.val = 6400 * t.val + p.val) :
    out2_5 (iblk2 V c 0 t) (iblk2 V c 1 t) (iblk2 V c 2 t) (iblk2 V c 3 t) (iblk2 V c 4 t) (ix2 p q) = out V c e q' := by
  obtain rfl : q = q' := Subsingleton.elim _ _
  unfold out
  exact pay_eq_lin _ _ _ _ _ _ _ _ _ _ p q e (fun k => act_blk_apply V c t p k e he) (fun k => mean_blk_apply V c t k)
    (fun k => var_blk_apply V c t k) (fun k => wgt_blk_apply V c t k q) (bias_blk_apply V c t q)

/-- What point `t` writes back is its block of the layer's output. -/
theorem flushed_eq (c : Dev nD) (t : Fin cfg2.N) :
    (dat2 V c).flushed 5 t = ((cfg2.win 5).blk t).view.read (Elt Ideal) (fun (i : S800000x1.Idx) => out V c (i 0) (i 1)) := by
  show (cfg2.win 5).cut (grid2.coords t) ((dat2 V c).after 5 t) = _
  rw [after2_5]
  refine funext fun (j : S6400x1.Idx) => ?_
  obtain ⟨p, q, rfl⟩ : ∃ (p : Fin 6400) (q : Fin 1), j = ix2 p q := ⟨j 0, j 1, eq_ix2 j⟩
  show out2_5 (iblk2 V c 0 t) (iblk2 V c 1 t) (iblk2 V c 2 t) (iblk2 V c 3 t) (iblk2 V c 4 t) (ix2 p q)
    = out V c ((((cfg2.win 5).blk t).view.emb (ix2 p q)) 0) ((((cfg2.win 5).blk t).view.emb (ix2 p q)) 1)
  refine blk_value V c t p q _ _ ?_
  show win2_5.index t (0 : Fin 2) * 6400 + 1 * p.val = 6400 * t.val + p.val
  rw [(idx_facts t).2.2.2.2.2.2.2.2.2.2.1]; omega

/-- An index of the array is in point `t`'s block iff each coordinate is in the block's range on its axis. -/
theorem mem_blk (t : Fin cfg2.N) (i : S800000x1.Idx) :
    i ∈ ((cfg2.win 5).blk t).view.set ↔ ∀ a : Fin 2, win2_5.index t a * S6400x1.size a ≤ (i a).val ∧ (i a).val < win2_5.index t a * S6400x1.size a + S6400x1.size a := by
  show i ∈ ((View.whole main_v36).slice (win2_5.rect t)).set ↔ _
  rw [View.set_slice_whole, Rect.mem_set_unit]
  exact Iff.rfl

/-- Row `e` is in the block of point `e / 6400`. -/
theorem cover (i : S800000x1.Idx) : ∃ t : Fin cfg2.N, (cfg2.win 5).flush t = true ∧ i ∈ ((cfg2.win 5).blk t).view.set := by
  have hi0 : (i 0).val < 800000 := (i 0).isLt
  have hi1 : (i 1).val < 1 := (i 1).isLt
  obtain ⟨t, ht⟩ := point_onto ⟨(i 0).val / 6400, by omega⟩
  have ht' : t.val = (i 0).val / 6400 := ht
  have h0 : win2_5.index t (0 : Fin 2) = t.val := (idx_facts t).2.2.2.2.2.2.2.2.2.2.1
  have h1 : win2_5.index t (1 : Fin 2) = 0 := (idx_facts t).2.2.2.2.2.2.2.2.2.2.2
  refine ⟨t, flush2_5 t, ?_⟩
  rw [mem_blk]
  intro a
  match a with
  | ⟨0, _⟩ => show win2_5.index t (0 : Fin 2) * 6400 ≤ (i 0).val ∧ (i 0).val < win2_5.index t (0 : Fin 2) * 6400 + 6400; omega
  | ⟨1, _⟩ => show win2_5.index t (1 : Fin 2) * 1 ≤ (i 1).val ∧ (i 1).val < win2_5.index t (1 : Fin 2) * 1 + 1; omega

theorem out_final (c : Dev nD) : (dat2 V c).arrAt 5 cfg2.N = fun (i : S800000x1.Idx) => out V c (i 0) (i 1) :=
  (dat2 V c).arrAt_eq_of_cover 5 _ (fun t _ => flushed_eq V c t) cover

end Cert.KernelIdeal.Layer3

end
-- ==== Proof.Boundaries.lean ====
/-
  What each region finds in its input buffers, read back through the host operations between the regions. Before the
  first region the host only gathers and joins rows of the table and reshapes the first bias. Between regions it turns
  the two accumulated rows into a mean row (the sum over the number of rows) and a variance row (the sum of squares over
  the number of rows, minus the squared mean) and touches nothing else: a region's big output reaches the next region as
  the region left it, the weights and biases as launched.
-/
import proofs.«150829_j41841571397745_1_alg».proof.Proof.Gen.KernelIdeal.Frame
import proofs.«150829_j41841571397745_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.Lib.Tactic

set_option maxRecDepth 16384

noncomputable section

namespace Cert.KernelIdeal.Boundaries

open Cert.KernelIdeal Cert.KernelIdeal.Gen Cert.NormMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Reading the host's operations at an index -/

/-- A buffer that no operation of a host stretch writes keeps its contents across the stretch: every operation's
    written buffer is a different one. -/
local macro "host_keeps" h:ident : tactic =>
  `(tactic| (refine StableHlo.after_of_forall_not_mem _ _ (List.forall_iff_forall_mem.mp ?_)
             simp only [$h:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A row of length n recast as a 1 × n matrix reads, at column j of its only row, the row's entry j: both have
    row-major position j. -/
private theorem addUnit_at {n : ℕ} {α : Type} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply _ _ (ix2 (0 : Fin 1) j) (ix1 j) ?_
  rw [Shape.rowMajor_val_one, Shape.rowMajor_val_two]
  show j.val = 0 * _ + j.val
  omega

/-- The divisor word spread over any shape reads the divisor everywhere. -/
private theorem cnt_at {T : Shape} (h : S_.BroadcastsInDim T ![]) (j : T.Idx) :
    broadcastInDim T ![] h (constant (F := Ideal) S_ .f32 0x49435000#32) j = cnt := by
  rw [broadcastInDim_scalar_apply]
  rfl

/-- The host's quotient at an index is the quotient of the entries. -/
private theorem mean_at {s : Shape} (a p : FVec Ideal s .f32) (i : s.Idx) :
    Host.divf a p i = Ideal.div (a i) (p i) := rfl

/-- The host's "quotient of the squares' sum, minus the squared quotient of the sum" at an index is that expression of
    the entries. -/
private theorem var_at {s : Shape} (a b p q : FVec Ideal s .f32) (i : s.Idx) :
    subf (Host.divf b q) (mulf (Host.divf a p) (Host.divf a p)) i
      = Ideal.div (b i) (q i) - Ideal.div (a i) (p i) * Ideal.div (a i) (p i) := rfl

/-! ## The first region's entry -/

theorem V1_w (c : Dev nD) : V1 m ρ c main_arg2 = m ((c : Thread nD τ).loc main_arg2) :=
  calc V1 m ρ c main_arg2
    _ = W0 m ρ c (Proc.devRef .tc main_arg2) := by host_keeps hostOps0
    _ = m ((c : Thread nD τ).loc main_arg2) := rfl

/-- The three biases after the first host stretch: each launched row recast as a one-row matrix. -/
private theorem W1_b1 (c : Dev nD) :
    (W1 m ρ c (Proc.devRef .tc main_v19) : S1x256.Idx → EReal)
      = shapeCast S1x256 (m ((c : Thread nD τ).loc main_arg3) : S256.Idx → EReal) shapeCasts_S256_S1x256 := by
  dsimp only [W1, hostOps0]
  after_results
  rfl
private theorem W1_b2 (c : Dev nD) :
    (W1 m ρ c (Proc.devRef .tc main_v20) : S1x64.Idx → EReal)
      = shapeCast S1x64 (m ((c : Thread nD τ).loc main_arg5) : S64.Idx → EReal) shapeCasts_S64_S1x64 := by
  dsimp only [W1, hostOps0]
  after_results
  rfl
private theorem W1_b3 (c : Dev nD) :
    (W1 m ρ c (Proc.devRef .tc main_v21) : S1x1.Idx → EReal)
      = shapeCast S1x1 (m ((c : Thread nD τ).loc main_arg7) : S1.Idx → EReal) shapeCasts_S1_S1x1 := by
  dsimp only [W1, hostOps0]
  after_results
  rfl

theorem V1_b (c : Dev nD) (j : Fin 256) : V1 m ρ c main_v19 (ix2 (0 : Fin 1) j) = m ((c : Thread nD τ).loc main_arg3) (ix1 j) := by
  show (W1 m ρ c (Proc.devRef .tc main_v19) : S1x256.Idx → EReal) (ix2 (0 : Fin 1) j) = _
  rw [W1_b1]
  exact addUnit_at _ _ j

/-! ## The second region's entry -/

theorem V3_x (c : Dev nD) : V3 m ρ c main_v22_0 = (dat0 (V1 m ρ) c).arrAt 3 cfg0.N :=
  calc V3 m ρ c main_v22_0
    _ = W2 m ρ c (Proc.devRef .tc main_v22_0) := by host_keeps hostOps1
    _ = (dat0 (V1 m ρ) c).arrAt 3 cfg0.N := W2_arr m ρ c 3

/-- The mean row and the variance row as the second host stretch computes them from the first region's two
    accumulated rows. -/
private theorem V3_mean_arr (c : Dev nD) :
    (V3 m ρ c main_v24 : S1x256.Idx → EReal)
      = Host.divf (F := Ideal) (W2 m ρ c (Proc.devRef .tc main_v22_1) : S1x256.Idx → EReal)
          (broadcastInDim S1x256 ![] bcast_S_S1x256 (constant (F := Ideal) S_ .f32 0x49435000#32)) := by
  dsimp only [V3, W3, hostOps1]
  after_results
private theorem V3_var_arr (c : Dev nD) :
    (V3 m ρ c main_v28 : S1x256.Idx → EReal)
      = subf (F := Ideal)
          (Host.divf (F := Ideal) (W2 m ρ c (Proc.devRef .tc main_v22_2) : S1x256.Idx → EReal)
            (broadcastInDim S1x256 ![] bcast_S_S1x256 (constant (F := Ideal) S_ .f32 0x49435000#32)))
          (mulf (F := Ideal)
            (Host.divf (F := Ideal) (W2 m ρ c (Proc.devRef .tc main_v22_1) : S1x256.Idx → EReal)
              (broadcastInDim S1x256 ![] bcast_S_S1x256 (constant (F := Ideal) S_ .f32 0x49435000#32)))
            (Host.divf (F := Ideal) (W2 m ρ c (Proc.devRef .tc main_v22_1) : S1x256.Idx → EReal)
              (broadcastInDim S1x256 ![] bcast_S_S1x256 (constant (F := Ideal) S_ .f32 0x49435000#32)))) := by
  dsimp only [V3, W3, hostOps1]
  after_results

theorem V3_mean (c : Dev nD) (k : Fin 256) :
    V3 m ρ c main_v24 (ix2 (0 : Fin 1) k) = Ideal.div ((dat0 (V1 m ρ) c).arrAt 4 cfg0.N (ix2 (0 : Fin 1) k)) cnt := by
  have e4 := W2_arr m ρ c 4
  change W2 m ρ c (Proc.devRef .tc main_v22_1) = _ at e4
  rw [V3_mean_arr, e4, mean_at, cnt_at]

theorem V3_var (c : Dev nD) (k : Fin 256) :
    V3 m ρ c main_v28 (ix2 (0 : Fin 1) k)
      = Ideal.div ((dat0 (V1 m ρ) c).arrAt 5 cfg0.N (ix2 (0 : Fin 1) k)) cnt
        - Ideal.div ((dat0 (V1 m ρ) c).arrAt 4 cfg0.N (ix2 (0 : Fin 1) k)) cnt
          * Ideal.div ((dat0 (V1 m ρ) c).arrAt 4 cfg0.N (ix2 (0 : Fin 1) k)) cnt := by
  have e4 := W2_arr m ρ c 4
  change W2 m ρ c (Proc.devRef .tc main_v22_1) = _ at e4
  have e5 := W2_arr m ρ c 5
  change W2 m ρ c (Proc.devRef .tc main_v22_2) = _ at e5
  rw [V3_var_arr, e4, e5, var_at, cnt_at]

theorem V3_w (c : Dev nD) : V3 m ρ c main_arg4 = m ((c : Thread nD τ).loc main_arg4) :=
  calc V3 m ρ c main_arg4
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

theorem V3_b (c : Dev nD) (j : Fin 64) : V3 m ρ c main_v20 (ix2 (0 : Fin 1) j) = m ((c : Thread nD τ).loc main_arg5) (ix1 j) := by
  have e : V3 m ρ c main_v20 = W1 m ρ c (Proc.devRef .tc main_v20) :=
    calc V3 m ρ c main_v20
      _ = W2 m ρ c (Proc.devRef .tc main_v20) := by host_keeps hostOps1
      _ = W1 m ρ c (Proc.devRef .tc main_v20) := W2_of_ne m ρ c main_v20 (by decide)
  rw [e]
  show (W1 m ρ c (Proc.devRef .tc main_v20) : S1x64.Idx → EReal) (ix2 (0 : Fin 1) j) = _
  rw [W1_b2]
  exact addUnit_at _ _ j

/-! ## The third region's entry -/

theorem V5_x (c : Dev nD) : V5 m ρ c main_v29_0 = (dat1 (V3 m ρ) c).arrAt 5 cfg1.N :=
  calc V5 m ρ c main_v29_0
    _ = W4 m ρ c (Proc.devRef .tc main_v29_0) := by host_keeps hostOps2
    _ = (dat1 (V3 m ρ) c).arrAt 5 cfg1.N := W4_arr m ρ c 5

/-- The mean row and the variance row as the third host stretch computes them from the second region's two
    accumulated rows. -/
private theorem V5_mean_arr (c : Dev nD) :
    (V5 m ρ c main_v31 : S1x64.Idx → EReal)
      = Host.divf (F := Ideal) (W4 m ρ c (Proc.devRef .tc main_v29_1) : S1x64.Idx → EReal)
          (broadcastInDim S1x64 ![] bcast_S_S1x64 (constant (F := Ideal) S_ .f32 0x49435000#32)) := by
  dsimp only [V5, W5, hostOps2]
  after_results
private theorem V5_var_arr (c : Dev nD) :
    (V5 m ρ c main_v35 : S1x64.Idx → EReal)
      = subf (F := Ideal)
          (Host.divf (F := Ideal) (W4 m ρ c (Proc.devRef .tc main_v29_2) : S1x64.Idx → EReal)
            (broadcastInDim S1x64 ![] bcast_S_S1x64 (constant (F := Ideal) S_ .f32 0x49435000#32)))
          (mulf (F := Ideal)
            (Host.divf (F := Ideal) (W4 m ρ c (Proc.devRef .tc main_v29_1) : S1x64.Idx → EReal)
              (broadcastInDim S1x64 ![] bcast_S_S1x64 (constant (F := Ideal) S_ .f32 0x49435000#32)))
            (Host.divf (F := Ideal) (W4 m ρ c (Proc.devRef .tc main_v29_1) : S1x64.Idx → EReal)
              (broadcastInDim S1x64 ![] bcast_S_S1x64 (constant (F := Ideal) S_ .f32 0x49435000#32)))) := by
  dsimp only [V5, W5, hostOps2]
  after_results

theorem V5_mean (c : Dev nD) (k : Fin 64) :
    V5 m ρ c main_v31 (ix2 (0 : Fin 1) k) = Ideal.div ((dat1 (V3 m ρ) c).arrAt 6 cfg1.N (ix2 (0 : Fin 1) k)) cnt := by
  have e6 := W4_arr m ρ c 6
  change W4 m ρ c (Proc.devRef .tc main_v29_1) = _ at e6
  rw [V5_mean_arr, e6, mean_at, cnt_at]

theorem V5_var (c : Dev nD) (k : Fin 64) :
    V5 m ρ c main_v35 (ix2 (0 : Fin 1) k)
      = Ideal.div ((dat1 (V3 m ρ) c).arrAt 7 cfg1.N (ix2 (0 : Fin 1) k)) cnt
        - Ideal.div ((dat1 (V3 m ρ) c).arrAt 6 cfg1.N (ix2 (0 : Fin 1) k)) cnt
          * Ideal.div ((dat1 (V3 m ρ) c).arrAt 6 cfg1.N (ix2 (0 : Fin 1) k)) cnt := by
  have e6 := W4_arr m ρ c 6
  change W4 m ρ c (Proc.devRef .tc main_v29_1) = _ at e6
  have e7 := W4_arr m ρ c 7
  change W4 m ρ c (Proc.devRef .tc main_v29_2) = _ at e7
  rw [V5_var_arr, e6, e7, var_at, cnt_at]

theorem V5_w (c : Dev nD) : V5 m ρ c main_arg6 = m ((c : Thread nD τ).loc main_arg6) :=
  calc V5 m ρ c main_arg6
    _ = W4 m ρ c (Proc.devRef .tc main_arg6) := by host_keeps hostOps2
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

theorem V5_b (c : Dev nD) (j : Fin 1) : V5 m ρ c main_v21 (ix2 (0 : Fin 1) j) = m ((c : Thread nD τ).loc main_arg7) (ix1 j) := by
  have e : V5 m ρ c main_v21 = W1 m ρ c (Proc.devRef .tc main_v21) :=
    calc V5 m ρ c main_v21
      _ = W4 m ρ c (Proc.devRef .tc main_v21) := by host_keeps hostOps2
      _ = W3 m ρ c (Proc.devRef .tc main_v21) := W4_of_ne m ρ c main_v21 (by decide)
      _ = W2 m ρ c (Proc.devRef .tc main_v21) := by host_keeps hostOps1
      _ = W1 m ρ c (Proc.devRef .tc main_v21) := W2_of_ne m ρ c main_v21 (by decide)
  rw [e]
  show (W1 m ρ c (Proc.devRef .tc main_v21) : S1x1.Idx → EReal) (ix2 (0 : Fin 1) j) = _
  rw [W1_b3]
  exact addUnit_at _ _ j

end Cert.KernelIdeal.Boundaries

end
-- ==== Proof.KValue.lean ====
/-
  The kernel's result as one function of its arguments: the third region's output over the second's over the first's,
  the mean and variance rows between them computed from the accumulated column sums — the three-layer function with the
  variances taken from the moments.
-/
import proofs.«150829_j41841571397745_1_alg».proof.Proof.Gen.KernelIdeal.Frame
import proofs.«150829_j41841571397745_1_alg».proof.Proof.Spec
import proofs.«150829_j41841571397745_1_alg».proof.Proof.Layer1
import proofs.«150829_j41841571397745_1_alg».proof.Proof.Layer2
import proofs.«150829_j41841571397745_1_alg».proof.Proof.Layer3
import proofs.«150829_j41841571397745_1_alg».proof.Proof.Boundaries
import Idealize.ShloMosaic.Lib.ValueIdx

set_option maxRecDepth 16384

noncomputable section

namespace Cert.KernelIdeal.KValue

open Cert.KernelIdeal Cert.KernelIdeal.Gen Cert.NormMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A matrix written out over an index's two coordinates and read back as a matrix is the matrix. -/
theorem ofArr_eta {a b : ℕ} (f : Mat a b) : ofArr (fun (i : (⟨2, ![a, b]⟩ : Shape).Idx) => f (i 0) (i 1)) = f := rfl

/-- The first layer's output over the launch arguments: the weights and the bias reach the region as launched (the
    bias reshaped to one row). -/
theorem out1_eq (c : Dev nD) :
    Layer1.out (V1 m ρ) c
      = lin (ofArr (a := 800000) (b := 128) (V1 m ρ c main_v18)) (ofArr (a := 128) (b := 256) (m ((c : Thread nD τ).loc main_arg2)))
          (ofVec (a := 256) (m ((c : Thread nD τ).loc main_arg3))) := by
  have hb : (fun j => V1 m ρ c main_v19 (ix2 (0 : Fin 1) j)) = ofVec (a := 256) (m ((c : Thread nD τ).loc main_arg3)) :=
    funext fun j => Boundaries.V1_b m ρ c j
  unfold Layer1.out
  rw [hb, Boundaries.V1_w m ρ c]

/-- The second layer's output: the second region finds the first layer's output as the first region left it, and in
    its mean and variance rows the first layer's column sum over the number of rows, and its column sum of squares over
    the number of rows minus the squared mean — the variance from the moments. -/
theorem out2_eq (c : Dev nD) :
    Layer2.out (V3 m ρ) c
      = lin (stepMoments cnt eps (Layer1.out (V1 m ρ) c)) (ofArr (a := 256) (b := 64) (m ((c : Thread nD τ).loc main_arg4)))
          (ofVec (a := 64) (m ((c : Thread nD τ).loc main_arg5))) := by
  have hx : ofArr (a := 800000) (b := 256) (V3 m ρ c main_v22_0) = Layer1.out (V1 m ρ) c := by
    rw [Boundaries.V3_x m ρ c, Layer1.h_final (V1 m ρ) c]; rfl
  have hμ : (fun k => V3 m ρ c main_v24 (ix2 (0 : Fin 1) k)) = meanOf cnt (colSum (Layer1.out (V1 m ρ) c)) :=
    funext fun k => by rw [Boundaries.V3_mean m ρ c k, Layer1.sum_final (V1 m ρ) c]; rfl
  have hv : (fun k => V3 m ρ c main_v28 (ix2 (0 : Fin 1) k))
      = varMoments cnt (colSum (Layer1.out (V1 m ρ) c)) (colSumSq (Layer1.out (V1 m ρ) c)) :=
    funext fun k => by rw [Boundaries.V3_var m ρ c k, Layer1.sum_final (V1 m ρ) c, Layer1.sumsq_final (V1 m ρ) c]; rfl
  have hb : (fun j => V3 m ρ c main_v20 (ix2 (0 : Fin 1) j)) = ofVec (a := 64) (m ((c : Thread nD τ).loc main_arg5)) :=
    funext fun j => Boundaries.V3_b m ρ c j
  unfold Layer2.out stepMoments
  rw [hx, hμ, hv, hb, Boundaries.V3_w m ρ c]

/-- The third layer's output, likewise over the second's. -/
theorem out3_eq (c : Dev nD) :
    Layer3.out (V5 m ρ) c
      = lin (stepMoments cnt eps (Layer2.out (V3 m ρ) c)) (ofArr (a := 64) (b := 1) (m ((c : Thread nD τ).loc main_arg6)))
          (ofVec (a := 1) (m ((c : Thread nD τ).loc main_arg7))) := by
  have hx : ofArr (a := 800000) (b := 64) (V5 m ρ c main_v29_0) = Layer2.out (V3 m ρ) c := by
    rw [Boundaries.V5_x m ρ c, Layer2.h_final (V3 m ρ) c]; rfl
  have hμ : (fun k => V5 m ρ c main_v31 (ix2 (0 : Fin 1) k)) = meanOf cnt (colSum (Layer2.out (V3 m ρ) c)) :=
    funext fun k => by rw [Boundaries.V5_mean m ρ c k, Layer2.sum_final (V3 m ρ) c]; rfl
  have hv : (fun k => V5 m ρ c main_v35 (ix2 (0 : Fin 1) k))
      = varMoments cnt (colSum (Layer2.out (V3 m ρ) c)) (colSumSq (Layer2.out (V3 m ρ) c)) :=
    funext fun k => by rw [Boundaries.V5_var m ρ c k, Layer2.sum_final (V3 m ρ) c, Layer2.sumsq_final (V3 m ρ) c]; rfl
  have hb : (fun j => V5 m ρ c main_v21 (ix2 (0 : Fin 1) j)) = ofVec (a := 1) (m ((c : Thread nD τ).loc main_arg7)) :=
    funext fun j => Boundaries.V5_b m ρ c j
  unfold Layer3.out stepMoments
  rw [hx, hμ, hv, hb, Boundaries.V5_w m ρ c]

/-- The result buffer after the run: the last region's output array, which is the three-layer function. -/
theorem result (c : Dev nD) :
    W6 m ρ c (Proc.devRef .tc main_v36) = fun (i : S800000x1.Idx) =>
      netMoments cnt eps (ofArr (a := 800000) (b := 128) (V1 m ρ c main_v18))
        (ofArr (a := 128) (b := 256) (m ((c : Thread nD τ).loc main_arg2))) (ofVec (a := 256) (m ((c : Thread nD τ).loc main_arg3)))
        (ofArr (a := 256) (b := 64) (m ((c : Thread nD τ).loc main_arg4))) (ofVec (a := 64) (m ((c : Thread nD τ).loc main_arg5)))
        (ofArr (a := 64) (b := 1) (m ((c : Thread nD τ).loc main_arg6))) (ofVec (a := 1) (m ((c : Thread nD τ).loc main_arg7)))
        (i 0) (i 1) := by
  have h6 : W6 m ρ c (Proc.devRef .tc main_v36) = (dat2 (V5 m ρ) c).arrAt 5 cfg2.N := W6_arr m ρ c 5
  rw [h6, Layer3.out_final (V5 m ρ) c, out3_eq m ρ c, out2_eq m ρ c, out1_eq m ρ c]
  rfl

end Cert.KernelIdeal.KValue

end
-- ==== Proof.RefValue.lean ====
/-
  The reference's result, read one operation at a time, as the three-layer function with the centred variances: each
  layer a product with the weights plus the bias; between layers the column means (the sum over all rows divided by
  their number), the mean of the squared deviations, the reciprocal root, the clip at zero.
-/
import proofs.«150829_j41841571397745_1_alg».proof.Proof.Gen.ReferenceIdeal.Read
import proofs.«150829_j41841571397745_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read Cert.NormMlp
open Idealize.ShloMosaic Idealize.ShloMosaic.TcCoe Idealize.ShloMosaic.ValueIdx Idealize.SL.Sem

/-- A matrix read as an array and back is itself. -/
theorem ofArr_fun {a b : ℕ} (M : Mat a b) :
    ofArr (a := a) (b := b) (fun (i : (⟨2, ![a, b]⟩ : Shape).Idx) => M (i 0) (i 1)) = M := by
  funext p q; rfl

/-- The first layer: the joined matrix times the first weights plus the first bias. -/
theorem layer1 (x0 : (⟨S50000x64, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal)) :
    val_main_v22 (F := Ideal) x0 x1 x2 x3 = fun (i : S800000x256.Idx) =>
      lin (ofArr (a := 800000) (b := 128) (val_main_v18 (F := Ideal) x0 x1)) (ofArr (a := 128) (b := 256) x2)
        (ofVec (a := 256) x3) (i 0) (i 1) := by
  funext i
  obtain ⟨e, c, rfl⟩ : ∃ (e : Fin 800000) (c : Fin 256), i = ix2 e c := ⟨i 0, i 1, eq_ix2 i⟩
  rw [val_main_v22_apply, val_main_v19_apply, val_main_v21_apply, val_main_v20_apply]
  simp only [Ideal.addf_def, lin, ofArr, ofVec]
  refine congrArg₂ (· + ·) (Finset.sum_congr rfl fun k _ => ?_) ?_
  · exact congrArg₂ (· * ·) (congrArg _ (funext fun a => Fin.ext (by match a with | ⟨0, _⟩ => rfl | ⟨1, _⟩ => rfl)))
      (congrArg _ (funext fun a => Fin.ext (by match a with | ⟨0, _⟩ => rfl | ⟨1, _⟩ => rfl)))
  · exact congrArg _ (funext fun a => Fin.ext (by match a with | ⟨0, _⟩ => rfl))

/-- The step after the first layer: column means, centred variances, reciprocal root, clip at zero. -/
theorem step1 (x0 : (⟨S50000x64, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal)) :
    val_main_v41 (F := Ideal) x0 x1 x2 x3 = fun (i : S800000x256.Idx) =>
      stepCentred cnt eps (ofArr (a := 800000) (b := 256) (val_main_v22 (F := Ideal) x0 x1 x2 x3)) (i 0) (i 1) := by
  funext i
  obtain ⟨e, c, rfl⟩ : ∃ (e : Fin 800000) (c : Fin 256), i = ix2 e c := ⟨i 0, i 1, eq_ix2 i⟩
  have h1 : ∀ k : Fin 800000, idx_main_v23 (idx_main_v24 (idx_main_v34 (ix2 e c))) k = ix2 k c := fun k =>
    funext fun a => Fin.ext (by match a with | ⟨0, _⟩ => rfl | ⟨1, _⟩ => rfl)
  have h2 : ∀ k : Fin 800000, idx_main_v30 (idx_main_v31 (idx_main_v39 (ix2 e c))) k = ix2 k c := fun k =>
    funext fun a => Fin.ext (by match a with | ⟨0, _⟩ => rfl | ⟨1, _⟩ => rfl)
  have h3 : ∀ k k1 : Fin 800000, idx_main_v23 (idx_main_v24 (idx_main_v27 (ix2 k c))) k1 = ix2 k1 c := fun k k1 =>
    funext fun a => Fin.ext (by match a with | ⟨0, _⟩ => rfl | ⟨1, _⟩ => rfl)
  simp only [val_main_v41_apply, val_main_v40_apply, val_main_v35_apply, val_main_v34_apply, val_main_v26_apply,
    val_main_v24_apply, val_main_v23_apply, val_main_cst_apply, val_main_v25_apply, val_main_cst_3_apply,
    val_main_v39_apply, val_main_v38_apply, val_main_v37_apply, val_main_v33_apply, val_main_v31_apply,
    val_main_v30_apply, val_main_cst_4_apply, val_main_v29_apply, val_main_v28_apply, val_main_v27_apply,
    val_main_v32_apply, val_main_cst_5_apply, val_main_v36_apply, val_main_cst_6_apply,
    val_main_call0_v0_apply, val_main_call0_cst_apply,
    Ideal.addf_def, Ideal.subf_def, Ideal.mulf_def, Ideal.hostDivf_def, Ideal.hostUnary_rsqrt_def,
    Ideal.maximumf_def, Ideal.ofBits_def, Ideal.ofBits_zero_f32, zero_add]
  simp only [h1, h2, h3, stepCentred, normAct, meanOf, colSum, varCentred, ofArr, cnt, eps]

/-- The second layer: the first step's result times the second weights plus the second bias. -/
theorem layer2 (x0 : (⟨S50000x64, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v45 (F := Ideal) x0 x1 x2 x3 x4 x5 = fun (i : S800000x64.Idx) =>
      lin (ofArr (a := 800000) (b := 256) (val_main_v41 (F := Ideal) x0 x1 x2 x3)) (ofArr (a := 256) (b := 64) x4)
        (ofVec (a := 64) x5) (i 0) (i 1) := by
  funext i
  obtain ⟨e, c, rfl⟩ : ∃ (e : Fin 800000) (c : Fin 64), i = ix2 e c := ⟨i 0, i 1, eq_ix2 i⟩
  rw [val_main_v45_apply, val_main_v42_apply, val_main_v44_apply, val_main_v43_apply]
  simp only [Ideal.addf_def, lin, ofArr, ofVec]
  refine congrArg₂ (· + ·) (Finset.sum_congr rfl fun k _ => ?_) ?_
  · exact congrArg₂ (· * ·) (congrArg _ (funext fun a => Fin.ext (by match a with | ⟨0, _⟩ => rfl | ⟨1, _⟩ => rfl)))
      (congrArg _ (funext fun a => Fin.ext (by match a with | ⟨0, _⟩ => rfl | ⟨1, _⟩ => rfl)))
  · exact congrArg _ (funext fun a => Fin.ext (by match a with | ⟨0, _⟩ => rfl))

/-- The step after the second layer: column means, centred variances, reciprocal root, clip at zero. -/
theorem step2 (x0 : (⟨S50000x64, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v64 (F := Ideal) x0 x1 x2 x3 x4 x5 = fun (i : S800000x64.Idx) =>
      stepCentred cnt eps (ofArr (a := 800000) (b := 64) (val_main_v45 (F := Ideal) x0 x1 x2 x3 x4 x5)) (i 0) (i 1) := by
  funext i
  obtain ⟨e, c, rfl⟩ : ∃ (e : Fin 800000) (c : Fin 64), i = ix2 e c := ⟨i 0, i 1, eq_ix2 i⟩
  have h1 : ∀ k : Fin 800000, idx_main_v46 (idx_main_v47 (idx_main_v57 (ix2 e c))) k = ix2 k c := fun k =>
    funext fun a => Fin.ext (by match a with | ⟨0, _⟩ => rfl | ⟨1, _⟩ => rfl)
  have h2 : ∀ k : Fin 800000, idx_main_v53 (idx_main_v54 (idx_main_v62 (ix2 e c))) k = ix2 k c := fun k =>
    funext fun a => Fin.ext (by match a with | ⟨0, _⟩ => rfl | ⟨1, _⟩ => rfl)
  have h3 : ∀ k k1 : Fin 800000, idx_main_v46 (idx_main_v47 (idx_main_v50 (ix2 k c))) k1 = ix2 k1 c := fun k k1 =>
    funext fun a => Fin.ext (by match a with | ⟨0, _⟩ => rfl | ⟨1, _⟩ => rfl)
  simp only [val_main_v64_apply, val_main_v63_apply, val_main_v58_apply, val_main_v57_apply, val_main_v49_apply,
    val_main_v47_apply, val_main_v46_apply, val_main_cst_7_apply, val_main_v48_apply, val_main_cst_8_apply,
    val_main_v62_apply, val_main_v61_apply, val_main_v60_apply, val_main_v56_apply, val_main_v54_apply,
    val_main_v53_apply, val_main_cst_9_apply, val_main_v52_apply, val_main_v51_apply, val_main_v50_apply,
    val_main_v55_apply, val_main_cst_10_apply, val_main_v59_apply, val_main_cst_11_apply,
    val_main_call1_v0_apply, val_main_call1_cst_apply,
    Ideal.addf_def, Ideal.subf_def, Ideal.mulf_def, Ideal.hostDivf_def, Ideal.hostUnary_rsqrt_def,
    Ideal.maximumf_def, Ideal.ofBits_def, Ideal.ofBits_zero_f32, zero_add]
  simp only [h1, h2, h3, stepCentred, normAct, meanOf, colSum, varCentred, ofArr, cnt, eps]

/-- The third layer: the second step's result times the third weights plus the third bias. -/
theorem layer3 (x0 : (⟨S50000x64, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) :
    val_main_v68 (F := Ideal) x0 x1 x2 x3 x4 x5 x6 x7 = fun (i : S800000x1.Idx) =>
      lin (ofArr (a := 800000) (b := 64) (val_main_v64 (F := Ideal) x0 x1 x2 x3 x4 x5)) (ofArr (a := 64) (b := 1) x6)
        (ofVec (a := 1) x7) (i 0) (i 1) := by
  funext i
  obtain ⟨e, c, rfl⟩ : ∃ (e : Fin 800000) (c : Fin 1), i = ix2 e c := ⟨i 0, i 1, eq_ix2 i⟩
  rw [val_main_v68_apply, val_main_v65_apply, val_main_v67_apply, val_main_v66_apply]
  simp only [Ideal.addf_def, lin, ofArr, ofVec]
  refine congrArg₂ (· + ·) (Finset.sum_congr rfl fun k _ => ?_) ?_
  · exact congrArg₂ (· * ·) (congrArg _ (funext fun a => Fin.ext (by match a with | ⟨0, _⟩ => rfl | ⟨1, _⟩ => rfl)))
      (congrArg _ (funext fun a => Fin.ext (by match a with | ⟨0, _⟩ => rfl | ⟨1, _⟩ => rfl)))
  · exact congrArg _ (funext fun a => Fin.ext (by match a with | ⟨0, _⟩ => have h := c.isLt; show (0 : ℕ) = c.val; omega))

/-- The reference's last stage, as a function of its arguments. -/
theorem result (x0 : (⟨S50000x64, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) :
    val_main_v68 (F := Ideal) x0 x1 x2 x3 x4 x5 x6 x7 = fun (i : S800000x1.Idx) =>
      netCentred cnt eps (ofArr (a := 800000) (b := 128) (val_main_v18 (F := Ideal) x0 x1))
        (ofArr (a := 128) (b := 256) x2) (ofVec (a := 256) x3) (ofArr (a := 256) (b := 64) x4) (ofVec (a := 64) x5)
        (ofArr (a := 64) (b := 1) x6) (ofVec (a := 1) x7) (i 0) (i 1) := by
  rw [layer3, step2, ofArr_fun, layer2, step1, ofArr_fun, layer1, ofArr_fun, ofArr_fun]
  rfl

end Cert.ReferenceIdeal.RefValue

end
-- ==== Proof.lean ====
/-
  The proof of the claim. Three affine layers act on a matrix of 800000 rows: the rows of a table gathered through an
  index pair per row and joined side by side. Between two layers each column is normalised over all the rows and clipped
  at zero. The kernel runs the layers as three grids of 125 blocks of rows; the first two grids also accumulate each
  column's sum and sum of squares, from which the host forms the mean and the variance as the mean of the squares minus
  the squared mean. The reference forms the variance as the mean of the squared deviations from the mean.

  frames: the kernel's two runs terminate with the arguments kept (the frame of the three regions); the reference's is
  its run with the result dropped. preserves: the idealized kernel is the kernel's own text, nothing was rewritten.
  algebraic: both results are functions of the same gathered matrix, weights and biases; they differ only in the form
  of the variance, and the two forms agree on matrices of real entries. The precondition makes the table, the weights
  and the biases real; a layer of real weights keeps entries real, and so does the normalise-and-clip step, because the
  variance is nonnegative and the constant under the root positive. So the two results are equal entry by entry.
-/
import proofs.«150829_j41841571397745_1_alg».proof.Defs
import proofs.«150829_j41841571397745_1_alg».proof.Proof.Gen.Kernel
import proofs.«150829_j41841571397745_1_alg».proof.Proof.Gen.Kernel.Skeleton
import proofs.«150829_j41841571397745_1_alg».proof.Proof.Gen.Kernel.Launch
import proofs.«150829_j41841571397745_1_alg».proof.Proof.Gen.Kernel.Points
import proofs.«150829_j41841571397745_1_alg».proof.Proof.Gen.Kernel.Frame
import proofs.«150829_j41841571397745_1_alg».proof.Proof.Gen.KernelIdeal
import proofs.«150829_j41841571397745_1_alg».proof.Proof.Gen.KernelIdeal.Skeleton
import proofs.«150829_j41841571397745_1_alg».proof.Proof.Gen.KernelIdeal.Launch
import proofs.«150829_j41841571397745_1_alg».proof.Proof.Gen.KernelIdeal.Points
import proofs.«150829_j41841571397745_1_alg».proof.Proof.Gen.KernelIdeal.Frame
import proofs.«150829_j41841571397745_1_alg».proof.Proof.Gen.ReferenceIdeal
import proofs.«150829_j41841571397745_1_alg».proof.Proof.Gen.ReferenceIdeal.Run
import proofs.«150829_j41841571397745_1_alg».proof.Proof.Gen.ReferenceIdeal.Read
import proofs.«150829_j41841571397745_1_alg».proof.Proof.Gen.Pre_finite_inputs
import proofs.«150829_j41841571397745_1_alg».proof.Proof.Spec
import proofs.«150829_j41841571397745_1_alg».proof.Proof.Laws
import proofs.«150829_j41841571397745_1_alg».proof.Proof.Consts
import proofs.«150829_j41841571397745_1_alg».proof.Proof.Finite
import proofs.«150829_j41841571397745_1_alg».proof.Proof.Joined
import proofs.«150829_j41841571397745_1_alg».proof.Proof.KRun
import proofs.«150829_j41841571397745_1_alg».proof.Proof.KValue
import proofs.«150829_j41841571397745_1_alg».proof.Proof.RefValue
import Idealize.ShloMosaic.Adequacy
import Idealize.ShloMosaic.Init

noncomputable section

namespace Cert.Proof

open Idealize.ShloMosaic Idealize.SL.Sem Cert.NormMlp

/-- The reference's frame: its run with the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The two idealized programs end with equal results: each result is the three-layer function of the same gathered
    matrix, weights and biases — the kernel's with the variances from the moments, the reference's with the centred
    variances — and on the real inputs the precondition gives the two functions agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3, h4, h5⟩ :=
    Cert.KernelIdeal.Finite.args_real (hPre_finite_inputs := Cert.Pre_finite_inputs.Gen.facts) m hpre c
  obtain ⟨εr, hεpos, hε⟩ := eps_pos
  rw [Cert.ReferenceIdeal.Read.val_main_v68_eq, (hagree c).1, (hagree c).2.1, (hagree c).2.2.1, (hagree c).2.2.2.1,
    (hagree c).2.2.2.2.1, (hagree c).2.2.2.2.2.1, (hagree c).2.2.2.2.2.2.1, (hagree c).2.2.2.2.2.2.2,
    Cert.ReferenceIdeal.RefValue.result, Cert.KernelIdeal.KValue.result m ρ c, Cert.Joined.kernel_eq m ρ c]
  funext i
  exact (congrFun (congrFun (netMoments_eq_netCentred (n := 800000) (by norm_num) cnt_eq hε hεpos _ _
    (Cert.Joined.isReal _ _ h0) h2 h3 h4 h5) (i 0)) (i 1)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
